-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S1x8192 : Shape := ⟨2, ![1, 8192]⟩
abbrev S4096x8192 : Shape := ⟨2, ![4096, 8192]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 18
  | .vmem => 29
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x2048, .bf16⟩
  | .hbm, ⟨8, _⟩ => ⟨S4096x2048, .bf16⟩
  | .hbm, ⟨9, _⟩ => ⟨S2048x8192, .f32⟩
  | .hbm, ⟨10, _⟩ => ⟨S2048x8192, .bf16⟩
  | .hbm, ⟨11, _⟩ => ⟨S2048x8192, .f32⟩
  | .hbm, ⟨12, _⟩ => ⟨S2048x8192, .bf16⟩
  | .hbm, ⟨13, _⟩ => ⟨S1x8192, .f32⟩
  | .hbm, ⟨14, _⟩ => ⟨S1x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  bitsLt_bf16_f32 : FTy.bits .bf16 < FTy.bits .f32
  transposes_S8192x2048_S2048x8192_1_0 : S8192x2048.Transposes [1, 0] S2048x8192
  shapeCasts_S8192_S1x8192 : S8192.ShapeCasts S1x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x2048.size a
  hwx0_0 : ∀ i : grid0.Coords, EltTy.bits .bf16 = 32 ∨ (Rect.block (s := S4096x2048) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x2048.size a
  hwx0_1 : ∀ i : grid0.Coords, EltTy.bits .bf16 = 32 ∨ (Rect.block (s := S4096x2048) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x8192.size a
  hwx0_2 : ∀ i : grid0.Coords, EltTy.bits .bf16 = 32 ∨ (Rect.block (s := S2048x8192) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x8192.size a
  hwx0_3 : ∀ i : grid0.Coords, EltTy.bits .bf16 = 32 ∨ (Rect.block (s := S2048x8192) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x8192.size a
  hwx0_6 : ∀ i : grid0.Coords, EltTy.bits .f32 = 32 ∨ (Rect.block (s := S4096x8192) S512x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x8192.size a
  hwx1_0 : ∀ i : grid1.Coords, EltTy.bits .f32 = 32 ∨ (Rect.block (s := S4096x8192) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x8192.size a
  hwx1_1 : ∀ i : grid1.Coords, EltTy.bits .f32 = 32 ∨ (Rect.block (s := S4096x8192) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S4096x8192.size a
  hwx1_2 : ∀ i : grid1.Coords, EltTy.bits .f32 = 32 ∨ (Rect.block (s := S4096x8192) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x8192.size a
  hwx1_3 : ∀ i : grid1.Coords, EltTy.bits .f32 = 32 ∨ (Rect.block (s := S4096x8192) S256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S4096x2048.size a
  hwx1_4 : ∀ i : grid1.Coords, EltTy.bits .f32 = 32 ∨ (Rect.block (s := S4096x2048) S256x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S4096x2048.size a
  hwx1_5 : ∀ i : grid1.Coords, EltTy.bits .f32 = 32 ∨ (Rect.block (s := S4096x2048) S256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S4096x2048.size a
  hwx1_6 : ∀ i : grid1.Coords, EltTy.bits .f32 = 32 ∨ (Rect.block (s := S4096x2048) S256x1024.size (cc1_transform_6 i) (hinb1_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v8) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S256x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.K.Data.lean ====
/-
  The proof data of the two kernel regions, stated at a parameter `V` (what the core's buffers hold when a region is
  entered), and the contents of the unscoped buffers at the three boundaries of @main's items.

  Region 0 is a matrix product accumulated over the last grid axis: the grid is 8 × 8 × 2, the last coordinate `k`
  runs fastest, and a scratch block carries the partial sum from `k = 0` to `k = 1`. At `k = 0` the scratch is
  reset to zero and both products of that K-block are added; at `k = 1` the two products of the second K-block are
  added to what the point before left, and the sum plus the two bias rows is stored into the output block. So after
  point `n` the scratch holds `accAt n`: one K-step from zero at an even point, one K-step from `accAt (n - 1)` at
  an odd point; and the output block written back at an odd point is `accAt n` plus the biases.

  Region 1 is pointwise: four blocks of the gate array (one per gate, at column blocks 0–1, 2–3, 4–5, 6–7), the cell
  state's block, and the two result blocks. The gate array is read through four windows, each holding a quarter share.
-/
import proofs.«181704_j25950192402731_1_alg».proof.Proof.Gen.Kernel.Launch
import proofs.«181704_j25950192402731_1_alg».proof.Proof.Gen.Kernel.Skeleton
import proofs.«181704_j25950192402731_1_alg».proof.Proof.Gen.Kernel.Points
import proofs.«181704_j25950192402731_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section AtV

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One K-step: to the running sum `a` add the product of the `x` block with the first weight block, then the
    product of the `h` block with the second. -/
def kstep (a : Vec F S512x1024 .f32) (x : Vec F S512x1024 .bf16) (wx : Vec F S1024x1024 .bf16)
    (h : Vec F S512x1024 .bf16) (wh : Vec F S1024x1024 .bf16) : Vec F S512x1024 .f32 :=
  k0_pay3 (k0_pay2 a x wx) h wh

/-- The scratch after point `n`: at an even point (`k = 0`) one K-step from zero, at an odd point (`k = 1`) one
    K-step from what the point before left. -/
def accAt (c : Dev nD) : (n : ℕ) → n < cfg0.N → Vec F S512x1024 .f32
  | 0, hn => kstep (k0_pay1 (F := F)) (iblk0 V c 0 ⟨0, hn⟩) (iblk0 V c 2 ⟨0, hn⟩) (iblk0 V c 1 ⟨0, hn⟩) (iblk0 V c 3 ⟨0, hn⟩)
  | n + 1, hn =>
    kstep (if (n + 1) % 2 = 0 then (k0_pay1 (F := F)) else accAt c n (Nat.lt_of_succ_lt hn))
      (iblk0 V c 0 ⟨n + 1, hn⟩) (iblk0 V c 2 ⟨n + 1, hn⟩) (iblk0 V c 1 ⟨n + 1, hn⟩) (iblk0 V c 3 ⟨n + 1, hn⟩)

/-- The output block as stored at point `t` (consulted at the odd points only, where it is written back): the
    running sum plus the two bias rows. -/
def out6At (c : Dev nD) (t : Fin cfg0.N) : Vec F S512x1024 .f32 :=
  k0_pay4 (accAt V c t.val t.isLt) (iblk0 V c 4 t) (iblk0 V c 5 t)

/-- The accumulator scratch, whole. -/
abbrev scM0 : Memref sig .tc .vmem S512x1024 .f32 := Memref.whole cc0_scratch0

/-- The scoped buffers that region 0 neither stages nor names: the other region's staging buffers, at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant of region 0 spelt out: the scratch at anything, the other scoped buffers at anything, the
    generator register at some state. -/
theorem PhiA0_eq (c : Dev nD) :
    (Pipeline.ΦA (U := UR sig nD τ) (Val := Elt F) spec0 c : sProp 𝕄)
      = iprop(((∃ f : Buf (Elt F) ((c : Thread nD τ).loc cc0_scratch0), ((c : Thread nD τ).loc cc0_scratch0) ↦{fullShare} f) ∗ rest0 (F := F) c) ∗ ∃ r, prngReg c r) := by
  unfold Pipeline.ΦA rest0
  rw [scopedRest0_eq]

/-- Region 0's invariant before position `n`: before the first point the class's; afterwards the scratch at what
    the point before left, the other scoped buffers at anything, the generator register at some state. -/
def Phi0 (c : Dev nD) : (n : ℕ) → n ≤ cfg0.N → sProp 𝕄
  | 0, _ => Pipeline.ΦA spec0 c
  | n + 1, hn => iprop((owns (c : Thread nD τ) scM0 fullShare (accAt V c n hn) ∗ rest0 (F := F) c) ∗ ∃ r, prngReg c r)

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (accAt V c n hn) ∗ rest0 (F := F) c) ∗ ∃ r, prngReg c r) := rfl

theorem Phi0_pos (c : Dev nD) (n : ℕ) (h : n ≤ cfg0.N) (hz : n ≠ 0) :
    Phi0 V c n h = iprop((owns (c : Thread nD τ) scM0 fullShare (accAt V c (n - 1) (by omega)) ∗ rest0 (F := F) c) ∗ ∃ r, prngReg c r) := by
  cases n with
  | zero => exact absurd rfl hz
  | succ n => rfl

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out6At V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out6At V c t := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new cell state's block at point `t`, of the input, forget and candidate gates' blocks and the cell state's. -/
def cNewAt (c : Dev nD) (t : Fin cfg1.N) : Vec F S256x1024 .f32 :=
  k1_pay1 (iblk1 V c 0 t) (iblk1 V c 1 t) (iblk1 V c 2 t) (iblk1 V c 4 t)

/-- The new hidden state's block at point `t`: the output gate's block beside those. -/
def hNewAt (c : Dev nD) (t : Fin cfg1.N) : Vec F S256x1024 .f32 :=
  k1_pay2 (iblk1 V c 0 t) (iblk1 V c 1 t) (iblk1 V c 3 t) (iblk1 V c 2 t) (iblk1 V c 4 t)

/-- The four quarter shares of the gate array, one per window that reads it. -/
abbrev qa : PosShare TreeShare := fullShare.left.left
abbrev qb : PosShare TreeShare := fullShare.left.right
abbrev qc : PosShare TreeShare := fullShare.right.left
abbrev qd : PosShare TreeShare := fullShare.right.right

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => hNewAt V c t
    | ⟨6, _⟩ => cNewAt V c t
  Φ _ := Pipeline.ΦA spec1 c
  q w := match w with
    | ⟨0, _⟩ => qa
    | ⟨1, _⟩ => qb
    | ⟨2, _⟩ => qc
    | ⟨3, _⟩ => qd
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = hNewAt V c t := by dsimp only [dat1]
theorem after1_6 (c : Dev nD) (t : Fin cfg1.N) : (dat1 V c).after 6 t = cNewAt V c t := by dsimp only [dat1]

end AtV

/-! ## The unscoped buffers at the boundaries of @main's items -/

variable (m : (ℓ : Loc nD τ sig) → Buf (Elt F) ℓ)

/-- After the host operations (region 0's entry), read at the TensorCore's references. -/
abbrev Vr1 : (c : Dev nD) → (b : Ref sig .tc) → Buf (Elt F) ((c : Thread nD τ).loc b) := fun c b => V1 m c b

/-- The gate array as region 0 leaves it: its write-backs folded over the entry contents. -/
def gatesArr (c : Dev nD) : Buf (Elt F) ((c : Thread nD τ).loc main_v8) := (dat0 (Vr1 m) c).arrAt 6 cfg0.N

/-- After region 0: the gate array at what the region's write-backs leave, every other buffer as entered. -/
def W2 (c : Dev nD) : Valuation τ sig (Elt F) := Function.update (V1 m c) (Proc.devRef .tc main_v8) (gatesArr m c)

abbrev Vr2 : (c : Dev nD) → (b : Ref sig .tc) → Buf (Elt F) ((c : Thread nD τ).loc b) := fun c b => W2 m c b

/-- The two results as region 1 leaves them. -/
def hNewArr (c : Dev nD) : Buf (Elt F) ((c : Thread nD τ).loc main_v9_0) := (dat1 (Vr2 m) c).arrAt 5 cfg1.N
def cNewArr (c : Dev nD) : Buf (Elt F) ((c : Thread nD τ).loc main_v9_1) := (dat1 (Vr2 m) c).arrAt 6 cfg1.N

/-- After region 1: the two results at what the region's write-backs leave, every other buffer as entered. -/
def W3 (c : Dev nD) : Valuation τ sig (Elt F) :=
  Function.update (Function.update (W2 m c) (Proc.devRef .tc main_v9_0) (hNewArr m c)) (Proc.devRef .tc main_v9_1) (cNewArr m c)

/-- The proof data family: each region's at its entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c

abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev R (c : Dev nD) : sProp 𝕄 := iprop((∃ r, prngReg c r) ∗ ∃ W, owes (c : Thread nD τ) (0 : CellTallies nD τ sig Unit) W)

end Cert.Kernel.Hand

end
-- ==== Proof.K.Body0.lean ====
/-
  Region 0's body at every grid point: the accumulating matrix product.
-/
import proofs.«181704_j25950192402731_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body0

/-! ## Offsets

Every load and store of the body goes through the whole-buffer rectangle at offset zero. -/

theorem zeroOff_a : (![0, 0] : Fin S512x1024.rank → Nat) = fun _ => 0 := funext fun a => by fin_cases a <;> rfl
theorem zeroOff_w : (![0, 0] : Fin S1024x1024.rank → Nat) = fun _ => 0 := funext fun a => by fin_cases a <;> rfl
theorem zeroOff_b : (![0, 0] : Fin S1x1024.rank → Nat) = fun _ => 0 := funext fun a => by fin_cases a <;> rfl

/-! ## The two conditions of the body, in closed form over the grid

The last grid coordinate `k` runs fastest and has extent 2, so `k = t % 2`: the reset branch (`k = 0`) is taken
exactly at the even points, the write-out branch (`k = 1`) exactly at the odd ones. -/

/-- The reset branch's condition, `k = 0`, as the body computes it from the grid coordinates. -/
abbrev firstK (i : grid0.Coords) : Prop :=
  (Scalar.cmpi .ne (Scalar.extui (Scalar.cmpi .eq (BitVec.ofNat 32 (i 2).val) 0#32)) 0#32) = 1#1
/-- The write-out branch's condition, `k = 1`. -/
abbrev lastK (i : grid0.Coords) : Prop := k0_cond2 i = 1#1

theorem firstK_iff : ∀ t : Fin cfg0.N, firstK (grid0.coords t) ↔ t.val % 2 = 0 :=
  (by decide +kernel : ∀ t : Fin grid0.N, firstK (grid0.coords t) ↔ t.val % 2 = 0)
theorem lastK_iff : ∀ t : Fin cfg0.N, lastK (grid0.coords t) ↔ t.val % 2 = 1 :=
  (by decide +kernel : ∀ t : Fin grid0.N, lastK (grid0.coords t) ↔ t.val % 2 = 1)

/-- At an even point the output window is idle: the body stores nothing into it. -/
theorem idle6_even : ∀ t : Fin cfg0.N, t.val % 2 = 0 → cfg0.idle 6 (grid0.coords t) = true := by decide +kernel
/-- At an odd point it is live. -/
theorem live6_odd : ∀ t : Fin cfg0.N, t.val % 2 = 1 → cfg0.idle 6 (grid0.coords t) = false := by decide +kernel
/-- At an even point the output block is not written back. -/
theorem noFlush6_even (t : Fin cfg0.N) (h : t.val % 2 = 0) : (cfg0.win 6).flush t = false :=
  Bool.eq_false_iff.mpr fun hf => by have := (flush0_6 t).mp hf; omega

/-! ## The body's triple, once per case -/

set_option maxHeartbeats 1000000 in
/-- `k = 0`: the scratch, entered at anything, is reset to zero and then takes the two products of this K-block; the
    bias rows and the output block are not touched. -/
theorem kernel_firstK (c : Dev nD) (E : Set ℕ) (i : grid0.Coords)
    (arg3 : Memref sig .tc .vmem S512x1024 .bf16) (harg3 : arg3.IsWhole)
    (arg4 : Memref sig .tc .vmem S512x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole)
    (hc0 : firstK i) (hc1 : ¬lastK i)
    (x : Vec F S512x1024 .bf16) (h : Vec F S512x1024 .bf16)
    (wx : Vec F S1024x1024 .bf16) (wh : Vec F S1024x1024 .bf16)
    (bx : Vec F S1x1024 .f32) (bh : Vec F S1x1024 .f32) (o : Vec F S512x1024 .f32)
    (K : PUnit → sProp 𝕄) :
    iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
        ∗ owns (c : Thread nD τ) arg9 fullShare o ∗ (∃ s, owns (c : Thread nD τ) arg10 fullShare s)
        ∗ (iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
            ∗ owns (c : Thread nD τ) arg9 fullShare o
            ∗ owns (c : Thread nD τ) arg10 fullShare (kstep (k0_pay1 (F := F)) x wx h wh)) -∗ K ⟨⟩))
      ⊢ wp frame (wpE (defs₀ (F := F)) Variants.none c none) E
          (cc0__matmul_kernel i arg3 harg3 arg4 harg4 arg5 harg5 arg6 harg6 arg7 harg7 arg8 harg8 arg9 harg9 arg10 harg10) K := by
  simp only [cc0__matmul_kernel_eq_skeleton]; unfold cc0__matmul_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%s, %fs, -, HS⟩, Hk⟩
  subst hf3 hf4 hf5 hf6 hf7 hf8 hf9
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact HS
  ipureintro
  sl_unfold_words
  rw [View.read_writes_eq_canon _ _ _ (fun y => ⟨_, List.mem_cons_self, View.mem_set_unit_zero zeroOff_a inb_S512x1024_S512x1024_0_0 y⟩)]
  rw [View.canon_cons_unit_zero (S := S512x1024) zeroOff_a]
  simp only [View.readCov_cons_toLoadRect, View.readAt_eq_ld, View.ld_unit_zero (S := S512x1024) zeroOff_a, View.ld_unit_zero (S := S1024x1024) zeroOff_w]
  rfl

set_option maxHeartbeats 1000000 in
/-- `k = 1`: the scratch, entered at `s`, takes the two products of this K-block, and the output block is stored
    whole: the new sum plus the two bias rows. -/
theorem kernel_lastK (c : Dev nD) (E : Set ℕ) (i : grid0.Coords)
    (arg3 : Memref sig .tc .vmem S512x1024 .bf16) (harg3 : arg3.IsWhole)
    (arg4 : Memref sig .tc .vmem S512x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole)
    (hc0 : ¬firstK i) (hc1 : lastK i)
    (x : Vec F S512x1024 .bf16) (h : Vec F S512x1024 .bf16)
    (wx : Vec F S1024x1024 .bf16) (wh : Vec F S1024x1024 .bf16)
    (bx : Vec F S1x1024 .f32) (bh : Vec F S1x1024 .f32) (s : Vec F S512x1024 .f32)
    (K : PUnit → sProp 𝕄) :
    iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
        ∗ (∃ o, owns (c : Thread nD τ) arg9 fullShare o) ∗ owns (c : Thread nD τ) arg10 fullShare s
        ∗ (iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
            ∗ owns (c : Thread nD τ) arg9 fullShare (k0_pay4 (kstep s x wx h wh) bx bh)
            ∗ owns (c : Thread nD τ) arg10 fullShare (kstep s x wx h wh)) -∗ K ⟨⟩))
      ⊢ wp frame (wpE (defs₀ (F := F)) Variants.none c none) E
          (cc0__matmul_kernel i arg3 harg3 arg4 harg4 arg5 harg5 arg6 harg6 arg7 harg7 arg8 harg8 arg9 harg9 arg10 harg10) K := by
  simp only [cc0__matmul_kernel_eq_skeleton]; unfold cc0__matmul_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%o, %f9, -, H9⟩, ⟨%fs, %hfs, HS⟩, Hk⟩
  subst hf3 hf4 hf5 hf6 hf7 hf8 hfs
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.read_writes_eq_canon _ _ _ (fun y => ⟨_, List.mem_cons_self, View.mem_set_unit_zero zeroOff_a inb_S512x1024_S512x1024_0_0 y⟩)]
    rw [View.canon_cons_unit_zero (S := S512x1024) zeroOff_a]
    simp only [View.readCov_cons_toLoadRect, View.readAt_eq_ld, View.ld_unit_zero (S := S512x1024) zeroOff_a, View.ld_unit_zero (S := S1024x1024) zeroOff_w, View.ld_unit_zero (S := S1x1024) zeroOff_b]
    rfl
  iexists _; isplitr
  swap; · iexact HS
  ipureintro
  sl_unfold_words
  rw [View.read_writes_eq_canon _ _ _ (fun y => ⟨_, List.mem_cons_self, View.mem_set_unit_zero zeroOff_a inb_S512x1024_S512x1024_0_0 y⟩)]
  rw [View.canon_cons_unit_zero (S := S512x1024) zeroOff_a]
  simp only [View.readCov_cons_toLoadRect, View.readAt_eq_ld, View.ld_unit_zero (S := S512x1024) zeroOff_a, View.ld_unit_zero (S := S1024x1024) zeroOff_w]
  rfl

/-! ## The running sum, by the parity of the point -/

/-- At an even point (`k = 0`) the scratch ends at one K-step from zero. -/
theorem accAt_even (c : Dev nD) (t : Fin cfg0.N) (h : t.val % 2 = 0) :
    accAt V c t.val t.isLt
      = kstep (k0_pay1 (F := F)) (iblk0 V c 0 t) (iblk0 V c 2 t) (iblk0 V c 1 t) (iblk0 V c 3 t) := by
  obtain ⟨n, hn⟩ := t
  cases n with
  | zero => rfl
  | succ n =>
    have h' : (n + 1) % 2 = 0 := h
    show kstep (if (n + 1) % 2 = 0 then (k0_pay1 (F := F)) else accAt V c n (Nat.lt_of_succ_lt hn)) _ _ _ _ = _
    rw [if_pos h']

/-- At an odd point (`k = 1`) it ends at one K-step from what the point before left. -/
theorem accAt_odd (c : Dev nD) (t : Fin cfg0.N) (h : t.val % 2 = 1) :
    accAt V c t.val t.isLt
      = kstep (accAt V c (t.val - 1) (Nat.lt_of_le_of_lt (Nat.sub_le _ _) t.isLt))
          (iblk0 V c 0 t) (iblk0 V c 2 t) (iblk0 V c 1 t) (iblk0 V c 3 t) := by
  obtain ⟨n, hn⟩ := t
  cases n with
  | zero => exact absurd (show (0 : ℕ) % 2 = 1 from h) (by decide)
  | succ n =>
    have h' : ¬(n + 1) % 2 = 0 := by have : (n + 1) % 2 = 1 := h; omega
    show kstep (if (n + 1) % 2 = 0 then (k0_pay1 (F := F)) else accAt V c n (Nat.lt_of_succ_lt hn)) _ _ _ _ = _
    rw [if_neg h']
    rfl

/-! ## What the body finds in the input windows

Each input's current buffer holds its block at every point, fetched there or not: the two bias rows are fetched at
the even points only, and at an odd point hold what the point before left, which is the same block, since their
index maps do not read `k`. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-- What the body leaves in an input window's buffer: the block, in place. -/
theorem leaves0_0 (c : Dev nD) (t : Fin cfg0.N) :
    (dat0 V c).leavesExact 0 t = owns (c : Thread nD τ) (st0_0 t) fullShare (iblk0 V c 0 t) := by
  unfold Dat.leavesExact; rw [show cfg0.idle 0 (grid0.coords t) = false from rfl, after0_0]
theorem leaves0_1 (c : Dev nD) (t : Fin cfg0.N) :
    (dat0 V c).leavesExact 1 t = owns (c : Thread nD τ) (st0_1 t) fullShare (iblk0 V c 1 t) := by
  unfold Dat.leavesExact; rw [show cfg0.idle 1 (grid0.coords t) = false from rfl, after0_1]
theorem leaves0_2 (c : Dev nD) (t : Fin cfg0.N) :
    (dat0 V c).leavesExact 2 t = owns (c : Thread nD τ) (st0_2 t) fullShare (iblk0 V c 2 t) := by
  unfold Dat.leavesExact; rw [show cfg0.idle 2 (grid0.coords t) = false from rfl, after0_2]
theorem leaves0_3 (c : Dev nD) (t : Fin cfg0.N) :
    (dat0 V c).leavesExact 3 t = owns (c : Thread nD τ) (st0_3 t) fullShare (iblk0 V c 3 t) := by
  unfold Dat.leavesExact; rw [show cfg0.idle 3 (grid0.coords t) = false from rfl, after0_3]
theorem leaves0_4 (c : Dev nD) (t : Fin cfg0.N) :
    (dat0 V c).leavesExact 4 t = owns (c : Thread nD τ) (st0_4 t) fullShare (iblk0 V c 4 t) := by
  unfold Dat.leavesExact; rw [show cfg0.idle 4 (grid0.coords t) = false from rfl, after0_4]
theorem leaves0_5 (c : Dev nD) (t : Fin cfg0.N) :
    (dat0 V c).leavesExact 5 t = owns (c : Thread nD τ) (st0_5 t) fullShare (iblk0 V c 5 t) := by
  unfold Dat.leavesExact; rw [show cfg0.idle 5 (grid0.coords t) = false from rfl, after0_5]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point. At an even point the reset case applies: the scratch enters at anything (at the first
    point the class's invariant says so; later it is what the point before left, which is forgotten) and leaves at
    one K-step from zero; the output window is idle and goes back as found. At an odd point the write-out case
    applies: the scratch enters at what the point before left and leaves one K-step further, and the output block
    is that sum plus the bias rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3, leaves0_4, leaves0_5]
  by_cases h0 : t.val % 2 = 0
  · have hc0 : firstK (grid0.coords t) := (firstK_iff t).mpr h0
    have hc1 : ¬lastK (grid0.coords t) := fun hh => by have := (lastK_iff t).mp hh; omega
    rw [Dat.leavesExact_idle (dat0 V c) 6 t (idle6_even t h0) (noFlush6_even t h0)]
    rw [accAt_even V c t h0]
    by_cases hz : t.val = 0
    · rw [Phi0_castSucc V c t, Phi0_zero V c _ _ hz, PhiA0_eq]
      iintro ⟨⟨⟨⟨%f, HS⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel_firstK c Set.univ (grid0.coords t) _ _ _ _ _ _ _ _ _ _ _ _ _ _ _ _ hc0 hc1
        (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]
      · iexists f; rw [owns_whole]; iexact HS
      iintro ⟨H0, H1, H2, H3, H4, H5, H6, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
    · rw [Phi0_castSucc V c t, Phi0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel_firstK c Set.univ (grid0.coords t) _ _ _ _ _ _ _ _ _ _ _ _ _ _ _ _ hc0 hc1
        (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]
      · iexists _; iexact HS
      iintro ⟨H0, H1, H2, H3, H4, H5, H6, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
  · have h1 : t.val % 2 = 1 := by omega
    have hz : t.val ≠ 0 := by omega
    have hc0 : ¬firstK (grid0.coords t) := fun hh => h0 ((firstK_iff t).mp hh)
    have hc1 : lastK (grid0.coords t) := (lastK_iff t).mpr h1
    rw [show (dat0 V c).leavesExact 6 t = owns (c : Thread nD τ) (st0_6 t) fullShare ((dat0 V c).after 6 t) from by
      unfold Dat.leavesExact; rw [live6_odd t h1], after0_6]
    unfold out6At
    rw [accAt_odd V c t h1]
    rw [Phi0_castSucc V c t, Phi0_pos V c _ _ hz]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernel_lastK c Set.univ (grid0.coords t) _ _ _ _ _ _ _ _ _ _ _ _ _ _ _ _ hc0 hc1
      (iblk0 V c 0 t) (iblk0 V c 1 t) (iblk0 V c 2 t) (iblk0 V c 3 t) (iblk0 V c 4 t) (iblk0 V c 5 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

end Body0

open Body0

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg0.lean ====
/-
  Region 0 as a segment of @main: entered from every unscoped buffer at the contents the host operations leave,
  left with the gate array at what the region's write-backs make of it and every other buffer as entered.
-/
import proofs.«181704_j25950192402731_1_alg».proof.Proof.K.Data
import proofs.«181704_j25950192402731_1_alg».proof.Proof.K.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Off the gate array the contents after region 0 are those before it. -/
theorem W2_of_ne (c : Dev nD) (b : Ref sig .tc) (hb : b ≠ main_v8) : W2 m c (Proc.devRef .tc b) = V1 m c (Proc.devRef .tc b) := by
  unfold W2; exact Function.update_of_ne (StableHlo.devRef_ne_of_ne hb) _ _
/-- At the gate array they are what the region's write-backs leave. -/
theorem W2_gates (c : Dev nD) : W2 m c (Proc.devRef .tc main_v8) = gatesArr m c := by
  unfold W2; exact Function.update_self _ _ _

/-- An input array of region 0 is as entered at every position, and no input's array is the gate array. -/
theorem arrAt_in0 (c : Dev nD) (w : Fin cfg0.W) (hw : (cfg0.win w).isOut = false) (hne : Pipeline.arrRef spec0 w ≠ main_v8) (n : ℕ) :
    (dat0 (Vr1 m) c).arrAt w n = Vr2 m c (Pipeline.arrRef spec0 w) :=
  ((dat0 (Vr1 m) c).arrAt_in w hw n).trans ((A_eq0 (Vr1 m) c w).trans (W2_of_ne m c _ hne).symm)

/-- At region 0's exit each of its arrays holds what the boundary's contents say. -/
theorem hF0 (c : Dev nD) (w : Fin cfg0.W) : (dat0 (Vr1 m) c).arrAt w cfg0.N = Vr2 m c (Pipeline.arrRef spec0 w) :=
  match w with
  | ⟨0, _⟩ => arrAt_in0 m c 0 rfl (by decide) _
  | ⟨1, _⟩ => arrAt_in0 m c 1 rfl (by decide) _
  | ⟨2, _⟩ => arrAt_in0 m c 2 rfl (by decide) _
  | ⟨3, _⟩ => arrAt_in0 m c 3 rfl (by decide) _
  | ⟨4, _⟩ => arrAt_in0 m c 4 rfl (by decide) _
  | ⟨5, _⟩ => arrAt_in0 m c 5 rfl (by decide) _
  | ⟨6, _⟩ => (W2_gates m c).symm

/-- Every buffer that is no array of region 0 is as entered. -/
theorem hrest0 (c : Dev nD) : ∀ b, b ∉ Finset.univ.image (Pipeline.arrRef spec0) → Vr2 m c b = Vr1 m c b :=
  fun b hb => W2_of_ne m c b fun e => hb (Finset.mem_image.mpr ⟨6, Finset.mem_univ _, e.symm⟩)

/-- After the last point region 0's invariant gives the scoped buffers and the generator register back: the scratch's
    named contents are forgotten. -/
theorem Phi0_last_out (c : Dev nD) :
    Phi0 (Vr1 m) c cfg0.N (Nat.le_refl _)
      ⊢ (iprop((∃ r, prngReg c r) ∗ Pipeline.scopedRest (Ix := Unit) (Name := ℕ) (U := UR sig nD τ) (Lvl := ℕ) (Val := Elt F) spec0 c) : sProp 𝕄) := by
  rw [Phi0_pos (Vr1 m) c cfg0.N (Nat.le_refl _) (by rw [show cfg0.N = 128 from N_0]; decide), scopedRest0_eq, owns_whole]
  unfold rest0
  iintro ⟨⟨Hs, Hr⟩, Hp⟩
  isplitl [Hp]; · iexact Hp
  isplitl [Hs]; · iexists _; iexact Hs
  iexact Hr

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ _ from Phi0_last_out m c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Body1.lean ====
/-
  Region 1's body at every grid point: the pointwise gating.

  The body loads the five input blocks whole (the three gates, the candidate and the cell state), stores the new
  cell state into the last window's buffer and the new hidden state into the one before it, both whole. At a point
  every input window has just been fetched, so its buffer holds its block of the array as the region found it; the two
  stored payloads at those blocks are what the proof data state the body leaves.
-/
import proofs.«181704_j25950192402731_1_alg».proof.Proof.K.Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows

Every input window of region 1 is fetched at every point, so its current staging buffer holds what the fetch
put there: the window's block of the array as the region found it. No window is cut, so the fetch fills the
whole buffer. -/

theorem found1_0 (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  rfl

theorem found1_1 (c : Dev nD) (t : Fin cfg1.N) (d) : (dat1 V c).before 1 t d = iblk1 V c 1 t := by
  rw [(dat1 V c).before_fetched 1 t (fetch1_1 t) d]
  unfold Dat.fetched Dat.blockOf iblk1
  rw [A_eq1]
  rfl

theorem found1_2 (c : Dev nD) (t : Fin cfg1.N) (d) : (dat1 V c).before 2 t d = iblk1 V c 2 t := by
  rw [(dat1 V c).before_fetched 2 t (fetch1_2 t) d]
  unfold Dat.fetched Dat.blockOf iblk1
  rw [A_eq1]
  rfl

theorem found1_3 (c : Dev nD) (t : Fin cfg1.N) (d) : (dat1 V c).before 3 t d = iblk1 V c 3 t := by
  rw [(dat1 V c).before_fetched 3 t (fetch1_3 t) d]
  unfold Dat.fetched Dat.blockOf iblk1
  rw [A_eq1]
  rfl

theorem found1_4 (c : Dev nD) (t : Fin cfg1.N) (d) : (dat1 V c).before 4 t d = iblk1 V c 4 t := by
  rw [(dat1 V c).before_fetched 4 t (fetch1_4 t) d]
  unfold Dat.fetched Dat.blockOf iblk1
  rw [A_eq1]
  rfl

/-! ## The body's accesses

The body reads and writes each staging buffer whole: through the rectangle of the buffer's own extents at zero
offsets. A load through it reads the contents, and one store through it leaves its payload, whatever the buffer
held before. -/

theorem zero_off : (![0, 0] : Fin 2 → Nat) = fun _ => 0 := funext fun a => by fin_cases a <;> rfl

abbrev whole1 : Rect S256x1024 := Rect.unit (s := S256x1024) ![0, 0] S256x1024.size inb_S256x1024_S256x1024_0_0

/-- One store through the whole-buffer rectangle covers the buffer. -/
theorem whole1_covers (p : Vec F S256x1024 .f32) (y : S256x1024.Idx) :
    ∃ pc ∈ ([⟨whole1, p⟩] : List (View.Piece (Elt F) S256x1024 .f32)), y ∈ pc.1.set :=
  ⟨_, List.mem_singleton_self _, View.mem_set_unit_zero zero_off inb_S256x1024_S256x1024_0_0 y⟩

section Whole
variable {κ : Kind} {sp : Space}

/-- A load of the whole buffer reads its contents. -/
theorem loaded_whole1 (v : View sig κ sp S256x1024 .f32) (f : v.ty.Contents (Elt F)) :
    View.readAt (Elt F) v whole1.toLoadRect f = View.read (Elt F) v f :=
  View.ld_unit_zero (S := S256x1024) zero_off inb_S256x1024_S256x1024_0_0 (View.read (Elt F) v f)

/-- After one store of the whole buffer it reads as the payload stored. -/
theorem stored_whole1 (v : View sig κ sp S256x1024 .f32) (f : v.ty.Contents (Elt F)) (p : Vec F S256x1024 .f32) :
    View.read (Elt F) v (v.writes (Elt F) f [⟨whole1, p⟩]) = p := by
  rw [View.read_writes_eq_canon v f _ (whole1_covers p), View.canon_unit_zero zero_off]

end Whole

/-! ## The body's triple -/

set_option maxHeartbeats 1000000 in
/-- The gating body on whole staging memrefs: with the five inputs' buffers reading `x0` (input gate), `x1` (forget
    gate), `x2` (candidate), `x3` (output gate) and `x4` (cell state) and the two results' buffers at anything, it runs
    to the continuation with the inputs as they were, the second result's buffer at the new cell state of
    `x0 x1 x2 x4` and the first result's at the new hidden state, which reads the output gate `x3` besides. The
    body also loads each result buffer before it stores into it; those values go unused. -/
theorem gate_triple (c : Dev nD) (E : Set ℕ) (i : grid1.Coords)
    (a0 : Memref sig .tc .vmem S256x1024 .f32) (h0 : a0.IsWhole) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S256x1024 .f32) (h4 : a4.IsWhole) (a5 : Memref sig .tc .vmem S256x1024 .f32) (h5 : a5.IsWhole)
    (a6 : Memref sig .tc .vmem S256x1024 .f32) (h6 : a6.IsWhole)
    (x0 x1 x2 x3 x4 : Vec F S256x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (k1_pay2 x0 x1 x3 x2 x4)
            ∗ owns (c : Thread nD τ) a6 fullShare (k1_pay1 x0 x1 x2 x4)) -∗ K ⟨⟩))
      ⊢ wp frame (wpE (defs₀ (F := F)) Variants.none c none) E (cc1__lstm_ew_kernel i a0 h0 a1 h1 a2 h2 a3 h3 a4 h4 a5 h5 a6 h6) K := by
  simp only [cc1__lstm_ew_kernel_eq_skeleton]; unfold cc1__lstm_ew_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [stored_whole1, loaded_whole1, loaded_whole1, loaded_whole1, loaded_whole1, loaded_whole1]
  iexists _; isplitr
  swap; · iexact H6
  ipureintro
  rw [stored_whole1, loaded_whole1, loaded_whole1, loaded_whole1, loaded_whole1]

/-! ## The obligation at a point -/

/-- What the body is handed at point `t`: the invariant, what the core owes, and the seven windows' current
    staging buffers one by one. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the same, each buffer at what the proof data say the body leaves. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at a point: the five input buffers hold their blocks, so the triple applies at those blocks, and the
    two results it leaves are the proof data's new hidden and cell state there. The invariant and what the core owes
    are the same before and after a point and pass through unread. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3, found1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold hNewAt cNewAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (gate_triple c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 1, at every point. -/
theorem body_obligation1 (c : Dev nD) : BodyObligation (dat1 (F := F) V c) (defs₀ (F := F)) Variants.none () Set.univ := fun t => by
  rw [bigSep_W1, bigSep_W1]
  exact body_at1 V c t

end Cert.Kernel.Hand

end
-- ==== Proof.K.Reg1.lean ====
/-
  Region 1 as a segment of @main: entered from every unscoped buffer at the contents region 0 leaves, left with the
  two results at what the region's write-backs make of them and every other buffer as entered. The gate array is
  read through four windows: its full share is dealt in quarters at entry and put together again at exit.
-/
import proofs.«181704_j25950192402731_1_alg».proof.Proof.K.Data
import proofs.«181704_j25950192402731_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The gate array's share, dealt in quarters and put together -/

/-- A buffer held at the full share is held at its four quarter shares, and conversely. -/
theorem pointsTo_quarters {ℓ : Loc nD τ sig} (f : Buf (Elt F) ℓ) :
    (ℓ ↦{fullShare} f : sProp 𝕄) ⊣⊢ iprop((ℓ ↦{qa} f) ∗ (ℓ ↦{qb} f) ∗ (ℓ ↦{qc} f) ∗ ℓ ↦{qd} f) := by
  constructor
  · iintro H
    ihave H := (pointsTo_share (PosShare.mem_left_op_right fullShare)).1 $$ H
    icases H with ⟨Hl, Hr⟩
    ihave Hl := (pointsTo_share (PosShare.mem_left_op_right fullShare.left)).1 $$ Hl
    ihave Hr := (pointsTo_share (PosShare.mem_left_op_right fullShare.right)).1 $$ Hr
    icases Hl with ⟨Ha, Hb⟩
    icases Hr with ⟨Hc, Hd⟩
    isplitl [Ha]; · iexact Ha
    isplitl [Hb]; · iexact Hb
    isplitl [Hc]; · iexact Hc
    iexact Hd
  · iintro ⟨Ha, Hb, Hc, Hd⟩
    iapply (pointsTo_share (PosShare.mem_left_op_right fullShare)).2
    isplitl [Ha Hb]
    · iapply (pointsTo_share (PosShare.mem_left_op_right fullShare.left)).2
      isplitl [Ha]; · iexact Ha
      iexact Hb
    · iapply (pointsTo_share (PosShare.mem_left_op_right fullShare.right)).2
      isplitl [Hc]; · iexact Hc
      iexact Hd

/-! ## Region 1's arrays: four buffers behind seven windows -/

section AtV

variable (V : (c : Dev nD) → (b : Ref sig .tc) → Buf (Elt F) ((c : Thread nD τ).loc b)) (c : Dev nD)

/-- The four distinct buffers behind region 1's seven windows, one by one. -/
theorem arrBufs1_eq (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v8) ↦{fullShare} V' main_v8) ∗ (((c : Thread nD τ).loc main_arg2) ↦{fullShare} V' main_arg2)
          ∗ (((c : Thread nD τ).loc main_v9_0) ↦{fullShare} V' main_v9_0) ∗ (((c : Thread nD τ).loc main_v9_1) ↦{fullShare} V' main_v9_1)) := by
  unfold Pipeline.arrBufs
  exact bigSep_eq_bigSepL_of_eq [main_v8, main_arg2, main_v9_0, main_v9_1] (by decide) (by decide) _

/-- The seven windows' holdings one by one: the gate array at the four quarter shares, the cell state's array and the
    two results at the full share. -/
theorem arrays1_eq (G : (w : Fin cfg1.W) → Buf (Elt F) ((cfg1.win w).arr.view.loc (c : Thread nD τ))) :
    (dat1 V c).arrays G
      = iprop((((c : Thread nD τ).loc main_v8) ↦{qa} G 0) ∗ (((c : Thread nD τ).loc main_v8) ↦{qb} G 1)
          ∗ (((c : Thread nD τ).loc main_v8) ↦{qc} G 2) ∗ (((c : Thread nD τ).loc main_v8) ↦{qd} G 3)
          ∗ (((c : Thread nD τ).loc main_arg2) ↦{fullShare} G 4)
          ∗ (((c : Thread nD τ).loc main_v9_0) ↦{fullShare} G 5) ∗ (((c : Thread nD τ).loc main_v9_1) ↦{fullShare} G 6)) := by
  have h0 : (cfg1.win 0).arr.view.set = Finset.univ := (arr_whole1 0).set_eq_univ
  have h4 : (cfg1.win 4).arr.view.set = Finset.univ := (arr_whole1 4).set_eq_univ
  have h5 : (cfg1.win 5).arr.view.set = Finset.univ := (arr_whole1 5).set_eq_univ
  have h6 : (cfg1.win 6).arr.view.set = Finset.univ := (arr_whole1 6).set_eq_univ
  unfold Dat.arrays
  rw [bigSep_W1, h0, h4, h5, h6]
  rfl

/-- ENTRY: the four buffers at the entry contents make the seven windows' holdings at the proof data's entry
    contents, the gate array's full share dealt in quarters. -/
theorem arrays_of_arrBufs1 :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hg, Hs, Hh, Hn⟩
  ihave Hg := (pointsTo_quarters _).1 $$ Hg
  icases Hg with ⟨Ha, Hb, Hc, Hd⟩
  isplitl [Ha]; · iexact Ha
  isplitl [Hb]; · iexact Hb
  isplitl [Hc]; · iexact Hc
  isplitl [Hd]; · iexact Hd
  isplitl [Hs]; · iexact Hs
  isplitl [Hh]; · iexact Hh
  iexact Hn

end AtV

/-! ## The boundary after region 1 against the boundary before it -/

/-- Off the two results the contents after region 1 are those before it. -/
theorem bdry3_of_ne (c : Dev nD) (b : Ref sig .tc) (hh : b ≠ main_v9_0) (hc : b ≠ main_v9_1) :
    W3 m c (Proc.devRef .tc b) = W2 m c (Proc.devRef .tc b) := by
  unfold W3
  rw [Function.update_of_ne (StableHlo.devRef_ne_of_ne hc), Function.update_of_ne (StableHlo.devRef_ne_of_ne hh)]
/-- At the new hidden state they are what the region's write-backs leave, -/
theorem bdry3_hNew (c : Dev nD) : W3 m c (Proc.devRef .tc main_v9_0) = hNewArr m c := by
  unfold W3
  rw [Function.update_of_ne (StableHlo.devRef_ne_of_ne (by decide)), Function.update_self]
/-- and at the new cell state likewise. -/
theorem bdry3_cNew (c : Dev nD) : W3 m c (Proc.devRef .tc main_v9_1) = cNewArr m c := by
  unfold W3; exact Function.update_self _ _ _

/-- An input array of region 1 is as entered at every position, and no input's array is one of the two results. -/
theorem arrAt_in1 (c : Dev nD) (w : Fin cfg1.W) (hw : (cfg1.win w).isOut = false)
    (hh : Pipeline.arrRef spec1 w ≠ main_v9_0) (hc : Pipeline.arrRef spec1 w ≠ main_v9_1) (n : ℕ) :
    (dat1 (Vr2 m) c).arrAt w n = W3 m c (Proc.devRef .tc (Pipeline.arrRef spec1 w)) :=
  ((dat1 (Vr2 m) c).arrAt_in w hw n).trans ((A_eq1 (Vr2 m) c w).trans (bdry3_of_ne m c _ hh hc).symm)

/-- EXIT: the seven windows' holdings at the exit contents make the four buffers at the last boundary's contents,
    the gate array's four quarter holdings (all at the entry contents: no window writes it) put together. -/
theorem arrBufs_of_arrays1 (c : Dev nD) :
    (dat1 (Vr2 m) c).arrays ((dat1 (Vr2 m) c).arrAt · cfg1.N)
      ⊢ (Pipeline.arrBufs (Ix := Unit) (Name := ℕ) (U := UR sig nD τ) (Lvl := ℕ) spec1 c (fun b => W3 m c b) : sProp 𝕄) := by
  have e0 : (dat1 (Vr2 m) c).arrAt 0 cfg1.N = W3 m c (Proc.devRef .tc main_v8) := arrAt_in1 m c 0 rfl (by decide) (by decide) _
  have e1 : (dat1 (Vr2 m) c).arrAt 1 cfg1.N = W3 m c (Proc.devRef .tc main_v8) := arrAt_in1 m c 1 rfl (by decide) (by decide) _
  have e2 : (dat1 (Vr2 m) c).arrAt 2 cfg1.N = W3 m c (Proc.devRef .tc main_v8) := arrAt_in1 m c 2 rfl (by decide) (by decide) _
  have e3 : (dat1 (Vr2 m) c).arrAt 3 cfg1.N = W3 m c (Proc.devRef .tc main_v8) := arrAt_in1 m c 3 rfl (by decide) (by decide) _
  have e4 : (dat1 (Vr2 m) c).arrAt 4 cfg1.N = W3 m c (Proc.devRef .tc main_arg2) := arrAt_in1 m c 4 rfl (by decide) (by decide) _
  have e5 : (dat1 (Vr2 m) c).arrAt 5 cfg1.N = W3 m c (Proc.devRef .tc main_v9_0) := (bdry3_hNew m c).symm
  have e6 : (dat1 (Vr2 m) c).arrAt 6 cfg1.N = W3 m c (Proc.devRef .tc main_v9_1) := (bdry3_cNew m c).symm
  rw [arrBufs1_eq, arrays1_eq, e0, e1, e2, e3, e4, e5, e6]
  iintro ⟨Ha, Hb, Hc, Hd, Hs, Hh, Hn⟩
  isplitl [Ha Hb Hc Hd]
  · iapply (pointsTo_quarters _).2
    isplitl [Ha]; · iexact Ha
    isplitl [Hb]; · iexact Hb
    isplitl [Hc]; · iexact Hc
    iexact Hd
  isplitl [Hs]; · iexact Hs
  isplitl [Hh]; · iexact Hh
  iexact Hn

/-- Every unscoped buffer that is no array of region 1 is after the region as before it. -/
theorem unscopedRest1_W3 (c : Dev nD) :
    (Pipeline.unscopedRest (Ix := Unit) (Name := ℕ) (U := UR sig nD τ) (Lvl := ℕ) spec1 c (fun b => W3 m c b) : sProp 𝕄)
      = Pipeline.unscopedRest spec1 c (Vr2 m c) := by
  unfold Pipeline.unscopedRest
  refine bigSep_congr fun b hb => ?_
  have hb' : b ∉ Finset.univ.image (Pipeline.arrRef spec1) := (Finset.mem_sdiff.mp hb).2
  have hh : b ≠ main_v9_0 := fun e => hb' (Finset.mem_image.mpr ⟨5, Finset.mem_univ _, e.symm⟩)
  have hc : b ≠ main_v9_1 := fun e => hb' (Finset.mem_image.mpr ⟨6, Finset.mem_univ _, e.symm⟩)
  exact congrArg (fun f => (((c : Thread nD τ).loc b) ↦{fullShare} f : sProp 𝕄)) (bdry3_of_ne m c b hh hc)

/-- The unscoped buffers at region 1's entry contents: the four buffers behind its windows, and the rest. -/
theorem held_entry1 (c : Dev nD) :
    (StableHlo.held (c : Thread nD τ) (Pipeline.ucRefs τ sig) (W2 m c) : sProp 𝕄)
      = iprop(Pipeline.arrBufs spec1 c (Vr2 m c) ∗ Pipeline.unscopedRest spec1 c (Vr2 m c)) :=
  (Pipeline.unscopedBufs_held c (W2 m c)).symm.trans
    (Pipeline.unscopedBufs_split₀ cfgs (1 : Fin 2) winFacts₀1.arr_unscoped c (Vr2 m c))

/-- The unscoped buffers at the last boundary's contents: the four buffers at them, and the rest as entered. -/
theorem held_exit1 (c : Dev nD) :
    (StableHlo.held (c : Thread nD τ) (Pipeline.ucRefs τ sig) (W3 m c) : sProp 𝕄)
      = iprop(Pipeline.arrBufs spec1 c (fun b => W3 m c b) ∗ Pipeline.unscopedRest spec1 c (Vr2 m c)) := by
  rw [← unscopedRest1_W3 m c]
  exact (Pipeline.unscopedBufs_held c (W3 m c)).symm.trans
    (Pipeline.unscopedBufs_split₀ cfgs (1 : Fin 2) winFacts₀1.arr_unscoped c (fun b => W3 m c b))

/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none, held_entry1]
    iintro ⟨⟨⟨Hbufs, Hrest⟩, Hp, HO⟩, -, -⟩
    imodintro
    isplitl [Hbufs]
    · iapply (arrays_of_arrBufs1 (Vr2 m) c); iexact Hbufs
    isplitr
    · unfold Pipeline.prefHeld
      rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · rw [held_exit1]
        isplitl [Ha]
        · iapply (arrBufs_of_arrays1 m c); iexact Ha
        iexact Hrest
      iexact HY
    unfold Pipeline.Dat.owesAt Pipeline.owesWithin
    icases HO with ⟨%W, -, HO⟩
    iexists W; iexact HO

end Cert.Kernel.Hand

end
-- ==== Proof.K.Run.lean ====
/-
  The run of @main: the host operations, then the two regions, from any launch memory with zero counters. Every weakly
  fair execution terminates without a fault, and the final memory holds every unscoped buffer at the last boundary's
  contents: the arguments as launched, the gate array and the two results at what the regions' write-backs leave.
-/
import proofs.«181704_j25950192402731_1_alg».proof.Proof.K.Data
import proofs.«181704_j25950192402731_1_alg».proof.Proof.K.Reg0
import proofs.«181704_j25950192402731_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's three items. -/
abbrev segs : List (Pipeline.Seg (pcfgs (F := F)) adm (pdats m) () defs₀ 𝒱₀ L lv) :=
  [ .host (hseg hostOps0 hostOps0_sub hostOps0_fresh (V0 m)),
    .region (reg0 m),
    .region (reg1 m) ]

theorem main_run (c : Dev nD) : main (F := F) c = Pipeline.Seg.run (segs m) := (main_chain c).trans (by chain_rfl)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the last boundary's contents are, buffer by buffer -/

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes and that is neither the gate array nor a result ends as launched. -/
theorem W3_launch (c : Dev nD) (b : Ref sig .tc) (hh : b ∉ hostOps0_W) (h8 : b ≠ main_v8) (h0 : b ≠ main_v9_0) (h1 : b ≠ main_v9_1) :
    W3 m c (Proc.devRef .tc b) = m ((c : Thread nD τ).loc b) :=
  (bdry3_of_ne m c b h0 h1).trans <| (W2_of_ne m c b h8).trans <| (V1_of m c b hh).trans rfl

/-- THE RUN, read at the buffers the claims name: the two results at what region 1's write-backs leave, every argument
    as launched. -/
theorem run_named : θ_run defs (onTc (τ := τ) (main (F := F))) ⟨m, fun _ => 0, ρ⟩ (fun r => ∀ c : Dev nD,
      r.2.mem ((c.tc : Thread nD τ).loc main_v9_0) = hNewArr m c
      ∧ r.2.mem ((c.tc : Thread nD τ).loc main_v9_1) = cNewArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9_0 (by decide))).trans (bdry3_hNew m c),
     (h c _ (mem_uc main_v9_1 (by decide))).trans (bdry3_cNew m c),
     (h c _ (mem_uc main_arg0 (by decide))).trans (W3_launch m c main_arg0 (by decide) (by decide) (by decide) (by decide)),
     (h c _ (mem_uc main_arg1 (by decide))).trans (W3_launch m c main_arg1 (by decide) (by decide) (by decide) (by decide)),
     (h c _ (mem_uc main_arg2 (by decide))).trans (W3_launch m c main_arg2 (by decide) (by decide) (by decide) (by decide)),
     (h c _ (mem_uc main_arg3 (by decide))).trans (W3_launch m c main_arg3 (by decide) (by decide) (by decide) (by decide)),
     (h c _ (mem_uc main_arg4 (by decide))).trans (W3_launch m c main_arg4 (by decide) (by decide) (by decide) (by decide)),
     (h c _ (mem_uc main_arg5 (by decide))).trans (W3_launch m c main_arg5 (by decide) (by decide) (by decide) (by decide)),
     (h c _ (mem_uc main_arg6 (by decide))).trans (W3_launch m c main_arg6 (by decide) (by decide) (by decide) (by decide))⟩)
    (run_all m ρ)

/-- THE FRAME: every argument ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2) (run_named m ρ)

end Cert.Kernel.Hand

end
-- ==== Proof.KI.Data.lean ====
/-
  The proof data of the two kernel regions, stated at a parameter `V` (what the core's buffers hold when a region is
  entered), and the contents of the unscoped buffers at the three boundaries of @main's items.

  Region 0 is a matrix product accumulated over the last grid axis: the grid is 8 × 8 × 2, the last coordinate `k`
  runs fastest, and a scratch block carries the partial sum from `k = 0` to `k = 1`. At `k = 0` the scratch is
  reset to zero and both products of that K-block are added; at `k = 1` the two products of the second K-block are
  added to what the point before left, and the sum plus the two bias rows is stored into the output block. So after
  point `n` the scratch holds `accAt n`: one K-step from zero at an even point, one K-step from `accAt (n - 1)` at
  an odd point; and the output block written back at an odd point is `accAt n` plus the biases.

  Region 1 is pointwise: four blocks of the gate array (one per gate, at column blocks 0–1, 2–3, 4–5, 6–7), the cell
  state's block, and the two result blocks. The gate array is read through four windows, each holding a quarter share.
-/
import proofs.«181704_j25950192402731_1_alg».proof.Proof.Gen.KernelIdeal.Launch
import proofs.«181704_j25950192402731_1_alg».proof.Proof.Gen.KernelIdeal.Skeleton
import proofs.«181704_j25950192402731_1_alg».proof.Proof.Gen.KernelIdeal.Points
import proofs.«181704_j25950192402731_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section AtV

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One K-step: to the running sum `a` add the product of the `x` block with the first weight block, then the
    product of the `h` block with the second. -/
def kstep (a : Vec F S512x1024 .f32) (x : Vec F S512x1024 .bf16) (wx : Vec F S1024x1024 .bf16)
    (h : Vec F S512x1024 .bf16) (wh : Vec F S1024x1024 .bf16) : Vec F S512x1024 .f32 :=
  k0_pay3 (k0_pay2 a x wx) h wh

/-- The scratch after point `n`: at an even point (`k = 0`) one K-step from zero, at an odd point (`k = 1`) one
    K-step from what the point before left. -/
def accAt (c : Dev nD) : (n : ℕ) → n < cfg0.N → Vec F S512x1024 .f32
  | 0, hn => kstep (k0_pay1 (F := F)) (iblk0 V c 0 ⟨0, hn⟩) (iblk0 V c 2 ⟨0, hn⟩) (iblk0 V c 1 ⟨0, hn⟩) (iblk0 V c 3 ⟨0, hn⟩)
  | n + 1, hn =>
    kstep (if (n + 1) % 2 = 0 then (k0_pay1 (F := F)) else accAt c n (Nat.lt_of_succ_lt hn))
      (iblk0 V c 0 ⟨n + 1, hn⟩) (iblk0 V c 2 ⟨n + 1, hn⟩) (iblk0 V c 1 ⟨n + 1, hn⟩) (iblk0 V c 3 ⟨n + 1, hn⟩)

/-- The output block as stored at point `t` (consulted at the odd points only, where it is written back): the
    running sum plus the two bias rows. -/
def out6At (c : Dev nD) (t : Fin cfg0.N) : Vec F S512x1024 .f32 :=
  k0_pay4 (accAt V c t.val t.isLt) (iblk0 V c 4 t) (iblk0 V c 5 t)

/-- The accumulator scratch, whole. -/
abbrev scM0 : Memref sig .tc .vmem S512x1024 .f32 := Memref.whole cc0_scratch0

/-- The scoped buffers that region 0 neither stages nor names: the other region's staging buffers, at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant of region 0 spelt out: the scratch at anything, the other scoped buffers at anything, the
    generator register at some state. -/
theorem PhiA0_eq (c : Dev nD) :
    (Pipeline.ΦA (U := UR sig nD τ) (Val := Elt F) spec0 c : sProp 𝕄)
      = iprop(((∃ f : Buf (Elt F) ((c : Thread nD τ).loc cc0_scratch0), ((c : Thread nD τ).loc cc0_scratch0) ↦{fullShare} f) ∗ rest0 (F := F) c) ∗ ∃ r, prngReg c r) := by
  unfold Pipeline.ΦA rest0
  rw [scopedRest0_eq]

/-- Region 0's invariant before position `n`: before the first point the class's; afterwards the scratch at what
    the point before left, the other scoped buffers at anything, the generator register at some state. -/
def Phi0 (c : Dev nD) : (n : ℕ) → n ≤ cfg0.N → sProp 𝕄
  | 0, _ => Pipeline.ΦA spec0 c
  | n + 1, hn => iprop((owns (c : Thread nD τ) scM0 fullShare (accAt V c n hn) ∗ rest0 (F := F) c) ∗ ∃ r, prngReg c r)

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (accAt V c n hn) ∗ rest0 (F := F) c) ∗ ∃ r, prngReg c r) := rfl

theorem Phi0_pos (c : Dev nD) (n : ℕ) (h : n ≤ cfg0.N) (hz : n ≠ 0) :
    Phi0 V c n h = iprop((owns (c : Thread nD τ) scM0 fullShare (accAt V c (n - 1) (by omega)) ∗ rest0 (F := F) c) ∗ ∃ r, prngReg c r) := by
  cases n with
  | zero => exact absurd rfl hz
  | succ n => rfl

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out6At V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out6At V c t := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new cell state's block at point `t`, of the input, forget and candidate gates' blocks and the cell state's. -/
def cNewAt (c : Dev nD) (t : Fin cfg1.N) : Vec F S256x1024 .f32 :=
  k1_pay1 (iblk1 V c 0 t) (iblk1 V c 1 t) (iblk1 V c 2 t) (iblk1 V c 4 t)

/-- The new hidden state's block at point `t`: the output gate's block beside those. -/
def hNewAt (c : Dev nD) (t : Fin cfg1.N) : Vec F S256x1024 .f32 :=
  k1_pay2 (iblk1 V c 0 t) (iblk1 V c 1 t) (iblk1 V c 3 t) (iblk1 V c 2 t) (iblk1 V c 4 t)

/-- The four quarter shares of the gate array, one per window that reads it. -/
abbrev qa : PosShare TreeShare := fullShare.left.left
abbrev qb : PosShare TreeShare := fullShare.left.right
abbrev qc : PosShare TreeShare := fullShare.right.left
abbrev qd : PosShare TreeShare := fullShare.right.right

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => hNewAt V c t
    | ⟨6, _⟩ => cNewAt V c t
  Φ _ := Pipeline.ΦA spec1 c
  q w := match w with
    | ⟨0, _⟩ => qa
    | ⟨1, _⟩ => qb
    | ⟨2, _⟩ => qc
    | ⟨3, _⟩ => qd
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = hNewAt V c t := by dsimp only [dat1]
theorem after1_6 (c : Dev nD) (t : Fin cfg1.N) : (dat1 V c).after 6 t = cNewAt V c t := by dsimp only [dat1]

end AtV

/-! ## The unscoped buffers at the boundaries of @main's items -/

variable (m : (ℓ : Loc nD τ sig) → Buf (Elt F) ℓ)

/-- After the host operations (region 0's entry), read at the TensorCore's references. -/
abbrev Vr1 : (c : Dev nD) → (b : Ref sig .tc) → Buf (Elt F) ((c : Thread nD τ).loc b) := fun c b => V1 m c b

/-- The gate array as region 0 leaves it: its write-backs folded over the entry contents. -/
def gatesArr (c : Dev nD) : Buf (Elt F) ((c : Thread nD τ).loc main_v8) := (dat0 (Vr1 m) c).arrAt 6 cfg0.N

/-- After region 0: the gate array at what the region's write-backs leave, every other buffer as entered. -/
def W2 (c : Dev nD) : Valuation τ sig (Elt F) := Function.update (V1 m c) (Proc.devRef .tc main_v8) (gatesArr m c)

abbrev Vr2 : (c : Dev nD) → (b : Ref sig .tc) → Buf (Elt F) ((c : Thread nD τ).loc b) := fun c b => W2 m c b

/-- The two results as region 1 leaves them. -/
def hNewArr (c : Dev nD) : Buf (Elt F) ((c : Thread nD τ).loc main_v9_0) := (dat1 (Vr2 m) c).arrAt 5 cfg1.N
def cNewArr (c : Dev nD) : Buf (Elt F) ((c : Thread nD τ).loc main_v9_1) := (dat1 (Vr2 m) c).arrAt 6 cfg1.N

/-- After region 1: the two results at what the region's write-backs leave, every other buffer as entered. -/
def W3 (c : Dev nD) : Valuation τ sig (Elt F) :=
  Function.update (Function.update (W2 m c) (Proc.devRef .tc main_v9_0) (hNewArr m c)) (Proc.devRef .tc main_v9_1) (cNewArr m c)

/-- The proof data family: each region's at its entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c

abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev R (c : Dev nD) : sProp 𝕄 := iprop((∃ r, prngReg c r) ∗ ∃ W, owes (c : Thread nD τ) (0 : CellTallies nD τ sig Unit) W)

end Cert.KernelIdeal.Hand

end
-- ==== Proof.KI.Body0.lean ====
/-
  Region 0's body at every grid point: the accumulating matrix product.
-/
import proofs.«181704_j25950192402731_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body0

/-! ## Offsets

Every load and store of the body goes through the whole-buffer rectangle at offset zero. -/

theorem zeroOff_a : (![0, 0] : Fin S512x1024.rank → Nat) = fun _ => 0 := funext fun a => by fin_cases a <;> rfl
theorem zeroOff_w : (![0, 0] : Fin S1024x1024.rank → Nat) = fun _ => 0 := funext fun a => by fin_cases a <;> rfl
theorem zeroOff_b : (![0, 0] : Fin S1x1024.rank → Nat) = fun _ => 0 := funext fun a => by fin_cases a <;> rfl

/-! ## The two conditions of the body, in closed form over the grid

The last grid coordinate `k` runs fastest and has extent 2, so `k = t % 2`: the reset branch (`k = 0`) is taken
exactly at the even points, the write-out branch (`k = 1`) exactly at the odd ones. -/

/-- The reset branch's condition, `k = 0`, as the body computes it from the grid coordinates. -/
abbrev firstK (i : grid0.Coords) : Prop :=
  (Scalar.cmpi .ne (Scalar.extui (Scalar.cmpi .eq (BitVec.ofNat 32 (i 2).val) 0#32)) 0#32) = 1#1
/-- The write-out branch's condition, `k = 1`. -/
abbrev lastK (i : grid0.Coords) : Prop := k0_cond2 i = 1#1

theorem firstK_iff : ∀ t : Fin cfg0.N, firstK (grid0.coords t) ↔ t.val % 2 = 0 :=
  (by decide +kernel : ∀ t : Fin grid0.N, firstK (grid0.coords t) ↔ t.val % 2 = 0)
theorem lastK_iff : ∀ t : Fin cfg0.N, lastK (grid0.coords t) ↔ t.val % 2 = 1 :=
  (by decide +kernel : ∀ t : Fin grid0.N, lastK (grid0.coords t) ↔ t.val % 2 = 1)

/-- At an even point the output window is idle: the body stores nothing into it. -/
theorem idle6_even : ∀ t : Fin cfg0.N, t.val % 2 = 0 → cfg0.idle 6 (grid0.coords t) = true := by decide +kernel
/-- At an odd point it is live. -/
theorem live6_odd : ∀ t : Fin cfg0.N, t.val % 2 = 1 → cfg0.idle 6 (grid0.coords t) = false := by decide +kernel
/-- At an even point the output block is not written back. -/
theorem noFlush6_even (t : Fin cfg0.N) (h : t.val % 2 = 0) : (cfg0.win 6).flush t = false :=
  Bool.eq_false_iff.mpr fun hf => by have := (flush0_6 t).mp hf; omega

/-! ## The body's triple, once per case -/

set_option maxHeartbeats 1000000 in
/-- `k = 0`: the scratch, entered at anything, is reset to zero and then takes the two products of this K-block; the
    bias rows and the output block are not touched. -/
theorem kernel_firstK (c : Dev nD) (E : Set ℕ) (i : grid0.Coords)
    (arg3 : Memref sig .tc .vmem S512x1024 .bf16) (harg3 : arg3.IsWhole)
    (arg4 : Memref sig .tc .vmem S512x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole)
    (hc0 : firstK i) (hc1 : ¬lastK i)
    (x : Vec F S512x1024 .bf16) (h : Vec F S512x1024 .bf16)
    (wx : Vec F S1024x1024 .bf16) (wh : Vec F S1024x1024 .bf16)
    (bx : Vec F S1x1024 .f32) (bh : Vec F S1x1024 .f32) (o : Vec F S512x1024 .f32)
    (K : PUnit → sProp 𝕄) :
    iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
        ∗ owns (c : Thread nD τ) arg9 fullShare o ∗ (∃ s, owns (c : Thread nD τ) arg10 fullShare s)
        ∗ (iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
            ∗ owns (c : Thread nD τ) arg9 fullShare o
            ∗ owns (c : Thread nD τ) arg10 fullShare (kstep (k0_pay1 (F := F)) x wx h wh)) -∗ K ⟨⟩))
      ⊢ wp frame (wpE (defs₀ (F := F)) Variants.none c none) E
          (cc0__matmul_kernel i arg3 harg3 arg4 harg4 arg5 harg5 arg6 harg6 arg7 harg7 arg8 harg8 arg9 harg9 arg10 harg10) K := by
  simp only [cc0__matmul_kernel_eq_skeleton]; unfold cc0__matmul_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%s, %fs, -, HS⟩, Hk⟩
  subst hf3 hf4 hf5 hf6 hf7 hf8 hf9
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact HS
  ipureintro
  sl_unfold_words
  rw [View.read_writes_eq_canon _ _ _ (fun y => ⟨_, List.mem_cons_self, View.mem_set_unit_zero zeroOff_a inb_S512x1024_S512x1024_0_0 y⟩)]
  rw [View.canon_cons_unit_zero (S := S512x1024) zeroOff_a]
  simp only [View.readCov_cons_toLoadRect, View.readAt_eq_ld, View.ld_unit_zero (S := S512x1024) zeroOff_a, View.ld_unit_zero (S := S1024x1024) zeroOff_w]
  rfl

set_option maxHeartbeats 1000000 in
/-- `k = 1`: the scratch, entered at `s`, takes the two products of this K-block, and the output block is stored
    whole: the new sum plus the two bias rows. -/
theorem kernel_lastK (c : Dev nD) (E : Set ℕ) (i : grid0.Coords)
    (arg3 : Memref sig .tc .vmem S512x1024 .bf16) (harg3 : arg3.IsWhole)
    (arg4 : Memref sig .tc .vmem S512x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S512x1024 .f32) (harg9 : arg9.IsWhole)
    (arg10 : Memref sig .tc .vmem S512x1024 .f32) (harg10 : arg10.IsWhole)
    (hc0 : ¬firstK i) (hc1 : lastK i)
    (x : Vec F S512x1024 .bf16) (h : Vec F S512x1024 .bf16)
    (wx : Vec F S1024x1024 .bf16) (wh : Vec F S1024x1024 .bf16)
    (bx : Vec F S1x1024 .f32) (bh : Vec F S1x1024 .f32) (s : Vec F S512x1024 .f32)
    (K : PUnit → sProp 𝕄) :
    iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
        ∗ (∃ o, owns (c : Thread nD τ) arg9 fullShare o) ∗ owns (c : Thread nD τ) arg10 fullShare s
        ∗ (iprop(owns (c : Thread nD τ) arg3 fullShare x ∗ owns (c : Thread nD τ) arg4 fullShare h
        ∗ owns (c : Thread nD τ) arg5 fullShare wx ∗ owns (c : Thread nD τ) arg6 fullShare wh
        ∗ owns (c : Thread nD τ) arg7 fullShare bx ∗ owns (c : Thread nD τ) arg8 fullShare bh
            ∗ owns (c : Thread nD τ) arg9 fullShare (k0_pay4 (kstep s x wx h wh) bx bh)
            ∗ owns (c : Thread nD τ) arg10 fullShare (kstep s x wx h wh)) -∗ K ⟨⟩))
      ⊢ wp frame (wpE (defs₀ (F := F)) Variants.none c none) E
          (cc0__matmul_kernel i arg3 harg3 arg4 harg4 arg5 harg5 arg6 harg6 arg7 harg7 arg8 harg8 arg9 harg9 arg10 harg10) K := by
  simp only [cc0__matmul_kernel_eq_skeleton]; unfold cc0__matmul_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%o, %f9, -, H9⟩, ⟨%fs, %hfs, HS⟩, Hk⟩
  subst hf3 hf4 hf5 hf6 hf7 hf8 hfs
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.read_writes_eq_canon _ _ _ (fun y => ⟨_, List.mem_cons_self, View.mem_set_unit_zero zeroOff_a inb_S512x1024_S512x1024_0_0 y⟩)]
    rw [View.canon_cons_unit_zero (S := S512x1024) zeroOff_a]
    simp only [View.readCov_cons_toLoadRect, View.readAt_eq_ld, View.ld_unit_zero (S := S512x1024) zeroOff_a, View.ld_unit_zero (S := S1024x1024) zeroOff_w, View.ld_unit_zero (S := S1x1024) zeroOff_b]
    rfl
  iexists _; isplitr
  swap; · iexact HS
  ipureintro
  sl_unfold_words
  rw [View.read_writes_eq_canon _ _ _ (fun y => ⟨_, List.mem_cons_self, View.mem_set_unit_zero zeroOff_a inb_S512x1024_S512x1024_0_0 y⟩)]
  rw [View.canon_cons_unit_zero (S := S512x1024) zeroOff_a]
  simp only [View.readCov_cons_toLoadRect, View.readAt_eq_ld, View.ld_unit_zero (S := S512x1024) zeroOff_a, View.ld_unit_zero (S := S1024x1024) zeroOff_w]
  rfl

/-! ## The running sum, by the parity of the point -/

/-- At an even point (`k = 0`) the scratch ends at one K-step from zero. -/
theorem accAt_even (c : Dev nD) (t : Fin cfg0.N) (h : t.val % 2 = 0) :
    accAt V c t.val t.isLt
      = kstep (k0_pay1 (F := F)) (iblk0 V c 0 t) (iblk0 V c 2 t) (iblk0 V c 1 t) (iblk0 V c 3 t) := by
  obtain ⟨n, hn⟩ := t
  cases n with
  | zero => rfl
  | succ n =>
    have h' : (n + 1) % 2 = 0 := h
    show kstep (if (n + 1) % 2 = 0 then (k0_pay1 (F := F)) else accAt V c n (Nat.lt_of_succ_lt hn)) _ _ _ _ = _
    rw [if_pos h']

/-- At an odd point (`k = 1`) it ends at one K-step from what the point before left. -/
theorem accAt_odd (c : Dev nD) (t : Fin cfg0.N) (h : t.val % 2 = 1) :
    accAt V c t.val t.isLt
      = kstep (accAt V c (t.val - 1) (Nat.lt_of_le_of_lt (Nat.sub_le _ _) t.isLt))
          (iblk0 V c 0 t) (iblk0 V c 2 t) (iblk0 V c 1 t) (iblk0 V c 3 t) := by
  obtain ⟨n, hn⟩ := t
  cases n with
  | zero => exact absurd (show (0 : ℕ) % 2 = 1 from h) (by decide)
  | succ n =>
    have h' : ¬(n + 1) % 2 = 0 := by have : (n + 1) % 2 = 1 := h; omega
    show kstep (if (n + 1) % 2 = 0 then (k0_pay1 (F := F)) else accAt V c n (Nat.lt_of_succ_lt hn)) _ _ _ _ = _
    rw [if_neg h']
    rfl

/-! ## What the body finds in the input windows

Each input's current buffer holds its block at every point, fetched there or not: the two bias rows are fetched at
the even points only, and at an odd point hold what the point before left, which is the same block, since their
index maps do not read `k`. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-- What the body leaves in an input window's buffer: the block, in place. -/
theorem leaves0_0 (c : Dev nD) (t : Fin cfg0.N) :
    (dat0 V c).leavesExact 0 t = owns (c : Thread nD τ) (st0_0 t) fullShare (iblk0 V c 0 t) := by
  unfold Dat.leavesExact; rw [show cfg0.idle 0 (grid0.coords t) = false from rfl, after0_0]
theorem leaves0_1 (c : Dev nD) (t : Fin cfg0.N) :
    (dat0 V c).leavesExact 1 t = owns (c : Thread nD τ) (st0_1 t) fullShare (iblk0 V c 1 t) := by
  unfold Dat.leavesExact; rw [show cfg0.idle 1 (grid0.coords t) = false from rfl, after0_1]
theorem leaves0_2 (c : Dev nD) (t : Fin cfg0.N) :
    (dat0 V c).leavesExact 2 t = owns (c : Thread nD τ) (st0_2 t) fullShare (iblk0 V c 2 t) := by
  unfold Dat.leavesExact; rw [show cfg0.idle 2 (grid0.coords t) = false from rfl, after0_2]
theorem leaves0_3 (c : Dev nD) (t : Fin cfg0.N) :
    (dat0 V c).leavesExact 3 t = owns (c : Thread nD τ) (st0_3 t) fullShare (iblk0 V c 3 t) := by
  unfold Dat.leavesExact; rw [show cfg0.idle 3 (grid0.coords t) = false from rfl, after0_3]
theorem leaves0_4 (c : Dev nD) (t : Fin cfg0.N) :
    (dat0 V c).leavesExact 4 t = owns (c : Thread nD τ) (st0_4 t) fullShare (iblk0 V c 4 t) := by
  unfold Dat.leavesExact; rw [show cfg0.idle 4 (grid0.coords t) = false from rfl, after0_4]
theorem leaves0_5 (c : Dev nD) (t : Fin cfg0.N) :
    (dat0 V c).leavesExact 5 t = owns (c : Thread nD τ) (st0_5 t) fullShare (iblk0 V c 5 t) := by
  unfold Dat.leavesExact; rw [show cfg0.idle 5 (grid0.coords t) = false from rfl, after0_5]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point. At an even point the reset case applies: the scratch enters at anything (at the first
    point the class's invariant says so; later it is what the point before left, which is forgotten) and leaves at
    one K-step from zero; the output window is idle and goes back as found. At an odd point the write-out case
    applies: the scratch enters at what the point before left and leaves one K-step further, and the output block
    is that sum plus the bias rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3, leaves0_4, leaves0_5]
  by_cases h0 : t.val % 2 = 0
  · have hc0 : firstK (grid0.coords t) := (firstK_iff t).mpr h0
    have hc1 : ¬lastK (grid0.coords t) := fun hh => by have := (lastK_iff t).mp hh; omega
    rw [Dat.leavesExact_idle (dat0 V c) 6 t (idle6_even t h0) (noFlush6_even t h0)]
    rw [accAt_even V c t h0]
    by_cases hz : t.val = 0
    · rw [Phi0_castSucc V c t, Phi0_zero V c _ _ hz, PhiA0_eq]
      iintro ⟨⟨⟨⟨%f, HS⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel_firstK c Set.univ (grid0.coords t) _ _ _ _ _ _ _ _ _ _ _ _ _ _ _ _ hc0 hc1
        (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]
      · iexists f; rw [owns_whole]; iexact HS
      iintro ⟨H0, H1, H2, H3, H4, H5, H6, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
    · rw [Phi0_castSucc V c t, Phi0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel_firstK c Set.univ (grid0.coords t) _ _ _ _ _ _ _ _ _ _ _ _ _ _ _ _ hc0 hc1
        (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]
      · iexists _; iexact HS
      iintro ⟨H0, H1, H2, H3, H4, H5, H6, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
  · have h1 : t.val % 2 = 1 := by omega
    have hz : t.val ≠ 0 := by omega
    have hc0 : ¬firstK (grid0.coords t) := fun hh => h0 ((firstK_iff t).mp hh)
    have hc1 : lastK (grid0.coords t) := (lastK_iff t).mpr h1
    rw [show (dat0 V c).leavesExact 6 t = owns (c : Thread nD τ) (st0_6 t) fullShare ((dat0 V c).after 6 t) from by
      unfold Dat.leavesExact; rw [live6_odd t h1], after0_6]
    unfold out6At
    rw [accAt_odd V c t h1]
    rw [Phi0_castSucc V c t, Phi0_pos V c _ _ hz]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernel_lastK c Set.univ (grid0.coords t) _ _ _ _ _ _ _ _ _ _ _ _ _ _ _ _ hc0 hc1
      (iblk0 V c 0 t) (iblk0 V c 1 t) (iblk0 V c 2 t) (iblk0 V c 3 t) (iblk0 V c 4 t) (iblk0 V c 5 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

end Body0

open Body0

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
/-
  Region 0 as a segment of @main: entered from every unscoped buffer at the contents the host operations leave,
  left with the gate array at what the region's write-backs make of it and every other buffer as entered.
-/
import proofs.«181704_j25950192402731_1_alg».proof.Proof.KI.Data
import proofs.«181704_j25950192402731_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Off the gate array the contents after region 0 are those before it. -/
theorem W2_of_ne (c : Dev nD) (b : Ref sig .tc) (hb : b ≠ main_v8) : W2 m c (Proc.devRef .tc b) = V1 m c (Proc.devRef .tc b) := by
  unfold W2; exact Function.update_of_ne (StableHlo.devRef_ne_of_ne hb) _ _
/-- At the gate array they are what the region's write-backs leave. -/
theorem W2_gates (c : Dev nD) : W2 m c (Proc.devRef .tc main_v8) = gatesArr m c := by
  unfold W2; exact Function.update_self _ _ _

/-- An input array of region 0 is as entered at every position, and no input's array is the gate array. -/
theorem arrAt_in0 (c : Dev nD) (w : Fin cfg0.W) (hw : (cfg0.win w).isOut = false) (hne : Pipeline.arrRef spec0 w ≠ main_v8) (n : ℕ) :
    (dat0 (Vr1 m) c).arrAt w n = Vr2 m c (Pipeline.arrRef spec0 w) :=
  ((dat0 (Vr1 m) c).arrAt_in w hw n).trans ((A_eq0 (Vr1 m) c w).trans (W2_of_ne m c _ hne).symm)

/-- At region 0's exit each of its arrays holds what the boundary's contents say. -/
theorem hF0 (c : Dev nD) (w : Fin cfg0.W) : (dat0 (Vr1 m) c).arrAt w cfg0.N = Vr2 m c (Pipeline.arrRef spec0 w) :=
  match w with
  | ⟨0, _⟩ => arrAt_in0 m c 0 rfl (by decide) _
  | ⟨1, _⟩ => arrAt_in0 m c 1 rfl (by decide) _
  | ⟨2, _⟩ => arrAt_in0 m c 2 rfl (by decide) _
  | ⟨3, _⟩ => arrAt_in0 m c 3 rfl (by decide) _
  | ⟨4, _⟩ => arrAt_in0 m c 4 rfl (by decide) _
  | ⟨5, _⟩ => arrAt_in0 m c 5 rfl (by decide) _
  | ⟨6, _⟩ => (W2_gates m c).symm

/-- Every buffer that is no array of region 0 is as entered. -/
theorem hrest0 (c : Dev nD) : ∀ b, b ∉ Finset.univ.image (Pipeline.arrRef spec0) → Vr2 m c b = Vr1 m c b :=
  fun b hb => W2_of_ne m c b fun e => hb (Finset.mem_image.mpr ⟨6, Finset.mem_univ _, e.symm⟩)

/-- After the last point region 0's invariant gives the scoped buffers and the generator register back: the scratch's
    named contents are forgotten. -/
theorem Phi0_last_out (c : Dev nD) :
    Phi0 (Vr1 m) c cfg0.N (Nat.le_refl _)
      ⊢ (iprop((∃ r, prngReg c r) ∗ Pipeline.scopedRest (Ix := Unit) (Name := ℕ) (U := UR sig nD τ) (Lvl := ℕ) (Val := Elt F) spec0 c) : sProp 𝕄) := by
  rw [Phi0_pos (Vr1 m) c cfg0.N (Nat.le_refl _) (by rw [show cfg0.N = 128 from N_0]; decide), scopedRest0_eq, owns_whole]
  unfold rest0
  iintro ⟨⟨Hs, Hr⟩, Hp⟩
  isplitl [Hp]; · iexact Hp
  isplitl [Hs]; · iexists _; iexact Hs
  iexact Hr

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ _ from Phi0_last_out m c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Body1.lean ====
/-
  Region 1's body at every grid point: the pointwise gating.

  The body loads the five input blocks whole (the three gates, the candidate and the cell state), stores the new
  cell state into the last window's buffer and the new hidden state into the one before it, both whole. At a point
  every input window has just been fetched, so its buffer holds its block of the array as the region found it; the two
  stored payloads at those blocks are what the proof data state the body leaves.
-/
import proofs.«181704_j25950192402731_1_alg».proof.Proof.KI.Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows

Every input window of region 1 is fetched at every point, so its current staging buffer holds what the fetch
put there: the window's block of the array as the region found it. No window is cut, so the fetch fills the
whole buffer. -/

theorem found1_0 (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  rfl

theorem found1_1 (c : Dev nD) (t : Fin cfg1.N) (d) : (dat1 V c).before 1 t d = iblk1 V c 1 t := by
  rw [(dat1 V c).before_fetched 1 t (fetch1_1 t) d]
  unfold Dat.fetched Dat.blockOf iblk1
  rw [A_eq1]
  rfl

theorem found1_2 (c : Dev nD) (t : Fin cfg1.N) (d) : (dat1 V c).before 2 t d = iblk1 V c 2 t := by
  rw [(dat1 V c).before_fetched 2 t (fetch1_2 t) d]
  unfold Dat.fetched Dat.blockOf iblk1
  rw [A_eq1]
  rfl

theorem found1_3 (c : Dev nD) (t : Fin cfg1.N) (d) : (dat1 V c).before 3 t d = iblk1 V c 3 t := by
  rw [(dat1 V c).before_fetched 3 t (fetch1_3 t) d]
  unfold Dat.fetched Dat.blockOf iblk1
  rw [A_eq1]
  rfl

theorem found1_4 (c : Dev nD) (t : Fin cfg1.N) (d) : (dat1 V c).before 4 t d = iblk1 V c 4 t := by
  rw [(dat1 V c).before_fetched 4 t (fetch1_4 t) d]
  unfold Dat.fetched Dat.blockOf iblk1
  rw [A_eq1]
  rfl

/-! ## The body's accesses

The body reads and writes each staging buffer whole: through the rectangle of the buffer's own extents at zero
offsets. A load through it reads the contents, and one store through it leaves its payload, whatever the buffer
held before. -/

theorem zero_off : (![0, 0] : Fin 2 → Nat) = fun _ => 0 := funext fun a => by fin_cases a <;> rfl

abbrev whole1 : Rect S256x1024 := Rect.unit (s := S256x1024) ![0, 0] S256x1024.size inb_S256x1024_S256x1024_0_0

/-- One store through the whole-buffer rectangle covers the buffer. -/
theorem whole1_covers (p : Vec F S256x1024 .f32) (y : S256x1024.Idx) :
    ∃ pc ∈ ([⟨whole1, p⟩] : List (View.Piece (Elt F) S256x1024 .f32)), y ∈ pc.1.set :=
  ⟨_, List.mem_singleton_self _, View.mem_set_unit_zero zero_off inb_S256x1024_S256x1024_0_0 y⟩

section Whole
variable {κ : Kind} {sp : Space}

/-- A load of the whole buffer reads its contents. -/
theorem loaded_whole1 (v : View sig κ sp S256x1024 .f32) (f : v.ty.Contents (Elt F)) :
    View.readAt (Elt F) v whole1.toLoadRect f = View.read (Elt F) v f :=
  View.ld_unit_zero (S := S256x1024) zero_off inb_S256x1024_S256x1024_0_0 (View.read (Elt F) v f)

/-- After one store of the whole buffer it reads as the payload stored. -/
theorem stored_whole1 (v : View sig κ sp S256x1024 .f32) (f : v.ty.Contents (Elt F)) (p : Vec F S256x1024 .f32) :
    View.read (Elt F) v (v.writes (Elt F) f [⟨whole1, p⟩]) = p := by
  rw [View.read_writes_eq_canon v f _ (whole1_covers p), View.canon_unit_zero zero_off]

end Whole

/-! ## The body's triple -/

set_option maxHeartbeats 1000000 in
/-- The gating body on whole staging memrefs: with the five inputs' buffers reading `x0` (input gate), `x1` (forget
    gate), `x2` (candidate), `x3` (output gate) and `x4` (cell state) and the two results' buffers at anything, it runs
    to the continuation with the inputs as they were, the second result's buffer at the new cell state of
    `x0 x1 x2 x4` and the first result's at the new hidden state, which reads the output gate `x3` besides. The
    body also loads each result buffer before it stores into it; those values go unused. -/
theorem gate_triple (c : Dev nD) (E : Set ℕ) (i : grid1.Coords)
    (a0 : Memref sig .tc .vmem S256x1024 .f32) (h0 : a0.IsWhole) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S256x1024 .f32) (h4 : a4.IsWhole) (a5 : Memref sig .tc .vmem S256x1024 .f32) (h5 : a5.IsWhole)
    (a6 : Memref sig .tc .vmem S256x1024 .f32) (h6 : a6.IsWhole)
    (x0 x1 x2 x3 x4 : Vec F S256x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (k1_pay2 x0 x1 x3 x2 x4)
            ∗ owns (c : Thread nD τ) a6 fullShare (k1_pay1 x0 x1 x2 x4)) -∗ K ⟨⟩))
      ⊢ wp frame (wpE (defs₀ (F := F)) Variants.none c none) E (cc1__lstm_ew_kernel i a0 h0 a1 h1 a2 h2 a3 h3 a4 h4 a5 h5 a6 h6) K := by
  simp only [cc1__lstm_ew_kernel_eq_skeleton]; unfold cc1__lstm_ew_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [stored_whole1, loaded_whole1, loaded_whole1, loaded_whole1, loaded_whole1, loaded_whole1]
  iexists _; isplitr
  swap; · iexact H6
  ipureintro
  rw [stored_whole1, loaded_whole1, loaded_whole1, loaded_whole1, loaded_whole1]

/-! ## The obligation at a point -/

/-- What the body is handed at point `t`: the invariant, what the core owes, and the seven windows' current
    staging buffers one by one. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the same, each buffer at what the proof data say the body leaves. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at a point: the five input buffers hold their blocks, so the triple applies at those blocks, and the
    two results it leaves are the proof data's new hidden and cell state there. The invariant and what the core owes
    are the same before and after a point and pass through unread. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3, found1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold hNewAt cNewAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (gate_triple c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 1, at every point. -/
theorem body_obligation1 (c : Dev nD) : BodyObligation (dat1 (F := F) V c) (defs₀ (F := F)) Variants.none () Set.univ := fun t => by
  rw [bigSep_W1, bigSep_W1]
  exact body_at1 V c t

end Cert.KernelIdeal.Hand

end
-- ==== Proof.KI.Reg1.lean ====
/-
  Region 1 as a segment of @main: entered from every unscoped buffer at the contents region 0 leaves, left with the
  two results at what the region's write-backs make of them and every other buffer as entered. The gate array is
  read through four windows: its full share is dealt in quarters at entry and put together again at exit.
-/
import proofs.«181704_j25950192402731_1_alg».proof.Proof.KI.Data
import proofs.«181704_j25950192402731_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The gate array's share, dealt in quarters and put together -/

/-- A buffer held at the full share is held at its four quarter shares, and conversely. -/
theorem pointsTo_quarters {ℓ : Loc nD τ sig} (f : Buf (Elt F) ℓ) :
    (ℓ ↦{fullShare} f : sProp 𝕄) ⊣⊢ iprop((ℓ ↦{qa} f) ∗ (ℓ ↦{qb} f) ∗ (ℓ ↦{qc} f) ∗ ℓ ↦{qd} f) := by
  constructor
  · iintro H
    ihave H := (pointsTo_share (PosShare.mem_left_op_right fullShare)).1 $$ H
    icases H with ⟨Hl, Hr⟩
    ihave Hl := (pointsTo_share (PosShare.mem_left_op_right fullShare.left)).1 $$ Hl
    ihave Hr := (pointsTo_share (PosShare.mem_left_op_right fullShare.right)).1 $$ Hr
    icases Hl with ⟨Ha, Hb⟩
    icases Hr with ⟨Hc, Hd⟩
    isplitl [Ha]; · iexact Ha
    isplitl [Hb]; · iexact Hb
    isplitl [Hc]; · iexact Hc
    iexact Hd
  · iintro ⟨Ha, Hb, Hc, Hd⟩
    iapply (pointsTo_share (PosShare.mem_left_op_right fullShare)).2
    isplitl [Ha Hb]
    · iapply (pointsTo_share (PosShare.mem_left_op_right fullShare.left)).2
      isplitl [Ha]; · iexact Ha
      iexact Hb
    · iapply (pointsTo_share (PosShare.mem_left_op_right fullShare.right)).2
      isplitl [Hc]; · iexact Hc
      iexact Hd

/-! ## Region 1's arrays: four buffers behind seven windows -/

section AtV

variable (V : (c : Dev nD) → (b : Ref sig .tc) → Buf (Elt F) ((c : Thread nD τ).loc b)) (c : Dev nD)

/-- The four distinct buffers behind region 1's seven windows, one by one. -/
theorem arrBufs1_eq (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v8) ↦{fullShare} V' main_v8) ∗ (((c : Thread nD τ).loc main_arg2) ↦{fullShare} V' main_arg2)
          ∗ (((c : Thread nD τ).loc main_v9_0) ↦{fullShare} V' main_v9_0) ∗ (((c : Thread nD τ).loc main_v9_1) ↦{fullShare} V' main_v9_1)) := by
  unfold Pipeline.arrBufs
  exact bigSep_eq_bigSepL_of_eq [main_v8, main_arg2, main_v9_0, main_v9_1] (by decide) (by decide) _

/-- The seven windows' holdings one by one: the gate array at the four quarter shares, the cell state's array and the
    two results at the full share. -/
theorem arrays1_eq (G : (w : Fin cfg1.W) → Buf (Elt F) ((cfg1.win w).arr.view.loc (c : Thread nD τ))) :
    (dat1 V c).arrays G
      = iprop((((c : Thread nD τ).loc main_v8) ↦{qa} G 0) ∗ (((c : Thread nD τ).loc main_v8) ↦{qb} G 1)
          ∗ (((c : Thread nD τ).loc main_v8) ↦{qc} G 2) ∗ (((c : Thread nD τ).loc main_v8) ↦{qd} G 3)
          ∗ (((c : Thread nD τ).loc main_arg2) ↦{fullShare} G 4)
          ∗ (((c : Thread nD τ).loc main_v9_0) ↦{fullShare} G 5) ∗ (((c : Thread nD τ).loc main_v9_1) ↦{fullShare} G 6)) := by
  have h0 : (cfg1.win 0).arr.view.set = Finset.univ := (arr_whole1 0).set_eq_univ
  have h4 : (cfg1.win 4).arr.view.set = Finset.univ := (arr_whole1 4).set_eq_univ
  have h5 : (cfg1.win 5).arr.view.set = Finset.univ := (arr_whole1 5).set_eq_univ
  have h6 : (cfg1.win 6).arr.view.set = Finset.univ := (arr_whole1 6).set_eq_univ
  unfold Dat.arrays
  rw [bigSep_W1, h0, h4, h5, h6]
  rfl

/-- ENTRY: the four buffers at the entry contents make the seven windows' holdings at the proof data's entry
    contents, the gate array's full share dealt in quarters. -/
theorem arrays_of_arrBufs1 :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hg, Hs, Hh, Hn⟩
  ihave Hg := (pointsTo_quarters _).1 $$ Hg
  icases Hg with ⟨Ha, Hb, Hc, Hd⟩
  isplitl [Ha]; · iexact Ha
  isplitl [Hb]; · iexact Hb
  isplitl [Hc]; · iexact Hc
  isplitl [Hd]; · iexact Hd
  isplitl [Hs]; · iexact Hs
  isplitl [Hh]; · iexact Hh
  iexact Hn

end AtV

/-! ## The boundary after region 1 against the boundary before it -/

/-- Off the two results the contents after region 1 are those before it. -/
theorem bdry3_of_ne (c : Dev nD) (b : Ref sig .tc) (hh : b ≠ main_v9_0) (hc : b ≠ main_v9_1) :
    W3 m c (Proc.devRef .tc b) = W2 m c (Proc.devRef .tc b) := by
  unfold W3
  rw [Function.update_of_ne (StableHlo.devRef_ne_of_ne hc), Function.update_of_ne (StableHlo.devRef_ne_of_ne hh)]
/-- At the new hidden state they are what the region's write-backs leave, -/
theorem bdry3_hNew (c : Dev nD) : W3 m c (Proc.devRef .tc main_v9_0) = hNewArr m c := by
  unfold W3
  rw [Function.update_of_ne (StableHlo.devRef_ne_of_ne (by decide)), Function.update_self]
/-- and at the new cell state likewise. -/
theorem bdry3_cNew (c : Dev nD) : W3 m c (Proc.devRef .tc main_v9_1) = cNewArr m c := by
  unfold W3; exact Function.update_self _ _ _

/-- An input array of region 1 is as entered at every position, and no input's array is one of the two results. -/
theorem arrAt_in1 (c : Dev nD) (w : Fin cfg1.W) (hw : (cfg1.win w).isOut = false)
    (hh : Pipeline.arrRef spec1 w ≠ main_v9_0) (hc : Pipeline.arrRef spec1 w ≠ main_v9_1) (n : ℕ) :
    (dat1 (Vr2 m) c).arrAt w n = W3 m c (Proc.devRef .tc (Pipeline.arrRef spec1 w)) :=
  ((dat1 (Vr2 m) c).arrAt_in w hw n).trans ((A_eq1 (Vr2 m) c w).trans (bdry3_of_ne m c _ hh hc).symm)

/-- EXIT: the seven windows' holdings at the exit contents make the four buffers at the last boundary's contents,
    the gate array's four quarter holdings (all at the entry contents: no window writes it) put together. -/
theorem arrBufs_of_arrays1 (c : Dev nD) :
    (dat1 (Vr2 m) c).arrays ((dat1 (Vr2 m) c).arrAt · cfg1.N)
      ⊢ (Pipeline.arrBufs (Ix := Unit) (Name := ℕ) (U := UR sig nD τ) (Lvl := ℕ) spec1 c (fun b => W3 m c b) : sProp 𝕄) := by
  have e0 : (dat1 (Vr2 m) c).arrAt 0 cfg1.N = W3 m c (Proc.devRef .tc main_v8) := arrAt_in1 m c 0 rfl (by decide) (by decide) _
  have e1 : (dat1 (Vr2 m) c).arrAt 1 cfg1.N = W3 m c (Proc.devRef .tc main_v8) := arrAt_in1 m c 1 rfl (by decide) (by decide) _
  have e2 : (dat1 (Vr2 m) c).arrAt 2 cfg1.N = W3 m c (Proc.devRef .tc main_v8) := arrAt_in1 m c 2 rfl (by decide) (by decide) _
  have e3 : (dat1 (Vr2 m) c).arrAt 3 cfg1.N = W3 m c (Proc.devRef .tc main_v8) := arrAt_in1 m c 3 rfl (by decide) (by decide) _
  have e4 : (dat1 (Vr2 m) c).arrAt 4 cfg1.N = W3 m c (Proc.devRef .tc main_arg2) := arrAt_in1 m c 4 rfl (by decide) (by decide) _
  have e5 : (dat1 (Vr2 m) c).arrAt 5 cfg1.N = W3 m c (Proc.devRef .tc main_v9_0) := (bdry3_hNew m c).symm
  have e6 : (dat1 (Vr2 m) c).arrAt 6 cfg1.N = W3 m c (Proc.devRef .tc main_v9_1) := (bdry3_cNew m c).symm
  rw [arrBufs1_eq, arrays1_eq, e0, e1, e2, e3, e4, e5, e6]
  iintro ⟨Ha, Hb, Hc, Hd, Hs, Hh, Hn⟩
  isplitl [Ha Hb Hc Hd]
  · iapply (pointsTo_quarters _).2
    isplitl [Ha]; · iexact Ha
    isplitl [Hb]; · iexact Hb
    isplitl [Hc]; · iexact Hc
    iexact Hd
  isplitl [Hs]; · iexact Hs
  isplitl [Hh]; · iexact Hh
  iexact Hn

/-- Every unscoped buffer that is no array of region 1 is after the region as before it. -/
theorem unscopedRest1_W3 (c : Dev nD) :
    (Pipeline.unscopedRest (Ix := Unit) (Name := ℕ) (U := UR sig nD τ) (Lvl := ℕ) spec1 c (fun b => W3 m c b) : sProp 𝕄)
      = Pipeline.unscopedRest spec1 c (Vr2 m c) := by
  unfold Pipeline.unscopedRest
  refine bigSep_congr fun b hb => ?_
  have hb' : b ∉ Finset.univ.image (Pipeline.arrRef spec1) := (Finset.mem_sdiff.mp hb).2
  have hh : b ≠ main_v9_0 := fun e => hb' (Finset.mem_image.mpr ⟨5, Finset.mem_univ _, e.symm⟩)
  have hc : b ≠ main_v9_1 := fun e => hb' (Finset.mem_image.mpr ⟨6, Finset.mem_univ _, e.symm⟩)
  exact congrArg (fun f => (((c : Thread nD τ).loc b) ↦{fullShare} f : sProp 𝕄)) (bdry3_of_ne m c b hh hc)

/-- The unscoped buffers at region 1's entry contents: the four buffers behind its windows, and the rest. -/
theorem held_entry1 (c : Dev nD) :
    (StableHlo.held (c : Thread nD τ) (Pipeline.ucRefs τ sig) (W2 m c) : sProp 𝕄)
      = iprop(Pipeline.arrBufs spec1 c (Vr2 m c) ∗ Pipeline.unscopedRest spec1 c (Vr2 m c)) :=
  (Pipeline.unscopedBufs_held c (W2 m c)).symm.trans
    (Pipeline.unscopedBufs_split₀ cfgs (1 : Fin 2) winFacts₀1.arr_unscoped c (Vr2 m c))

/-- The unscoped buffers at the last boundary's contents: the four buffers at them, and the rest as entered. -/
theorem held_exit1 (c : Dev nD) :
    (StableHlo.held (c : Thread nD τ) (Pipeline.ucRefs τ sig) (W3 m c) : sProp 𝕄)
      = iprop(Pipeline.arrBufs spec1 c (fun b => W3 m c b) ∗ Pipeline.unscopedRest spec1 c (Vr2 m c)) := by
  rw [← unscopedRest1_W3 m c]
  exact (Pipeline.unscopedBufs_held c (W3 m c)).symm.trans
    (Pipeline.unscopedBufs_split₀ cfgs (1 : Fin 2) winFacts₀1.arr_unscoped c (fun b => W3 m c b))

/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none, held_entry1]
    iintro ⟨⟨⟨Hbufs, Hrest⟩, Hp, HO⟩, -, -⟩
    imodintro
    isplitl [Hbufs]
    · iapply (arrays_of_arrBufs1 (Vr2 m) c); iexact Hbufs
    isplitr
    · unfold Pipeline.prefHeld
      rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · rw [held_exit1]
        isplitl [Ha]
        · iapply (arrBufs_of_arrays1 m c); iexact Ha
        iexact Hrest
      iexact HY
    unfold Pipeline.Dat.owesAt Pipeline.owesWithin
    icases HO with ⟨%W, -, HO⟩
    iexists W; iexact HO

end Cert.KernelIdeal.Hand

end
-- ==== Proof.KI.Run.lean ====
/-
  The run of @main: the host operations, then the two regions, from any launch memory with zero counters. Every weakly
  fair execution terminates without a fault, and the final memory holds every unscoped buffer at the last boundary's
  contents: the arguments as launched, the gate array and the two results at what the regions' write-backs leave.
-/
import proofs.«181704_j25950192402731_1_alg».proof.Proof.KI.Data
import proofs.«181704_j25950192402731_1_alg».proof.Proof.KI.Reg0
import proofs.«181704_j25950192402731_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's three items. -/
abbrev segs : List (Pipeline.Seg (pcfgs (F := F)) adm (pdats m) () defs₀ 𝒱₀ L lv) :=
  [ .host (hseg hostOps0 hostOps0_sub hostOps0_fresh (V0 m)),
    .region (reg0 m),
    .region (reg1 m) ]

theorem main_run (c : Dev nD) : main (F := F) c = Pipeline.Seg.run (segs m) := (main_chain c).trans (by chain_rfl)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the last boundary's contents are, buffer by buffer -/

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes and that is neither the gate array nor a result ends as launched. -/
theorem W3_launch (c : Dev nD) (b : Ref sig .tc) (hh : b ∉ hostOps0_W) (h8 : b ≠ main_v8) (h0 : b ≠ main_v9_0) (h1 : b ≠ main_v9_1) :
    W3 m c (Proc.devRef .tc b) = m ((c : Thread nD τ).loc b) :=
  (bdry3_of_ne m c b h0 h1).trans <| (W2_of_ne m c b h8).trans <| (V1_of m c b hh).trans rfl

/-- THE RUN, read at the buffers the claims name: the two results at what region 1's write-backs leave, every argument
    as launched. -/
theorem run_named : θ_run defs (onTc (τ := τ) (main (F := F))) ⟨m, fun _ => 0, ρ⟩ (fun r => ∀ c : Dev nD,
      r.2.mem ((c.tc : Thread nD τ).loc main_v9_0) = hNewArr m c
      ∧ r.2.mem ((c.tc : Thread nD τ).loc main_v9_1) = cNewArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9_0 (by decide))).trans (bdry3_hNew m c),
     (h c _ (mem_uc main_v9_1 (by decide))).trans (bdry3_cNew m c),
     (h c _ (mem_uc main_arg0 (by decide))).trans (W3_launch m c main_arg0 (by decide) (by decide) (by decide) (by decide)),
     (h c _ (mem_uc main_arg1 (by decide))).trans (W3_launch m c main_arg1 (by decide) (by decide) (by decide) (by decide)),
     (h c _ (mem_uc main_arg2 (by decide))).trans (W3_launch m c main_arg2 (by decide) (by decide) (by decide) (by decide)),
     (h c _ (mem_uc main_arg3 (by decide))).trans (W3_launch m c main_arg3 (by decide) (by decide) (by decide) (by decide)),
     (h c _ (mem_uc main_arg4 (by decide))).trans (W3_launch m c main_arg4 (by decide) (by decide) (by decide) (by decide)),
     (h c _ (mem_uc main_arg5 (by decide))).trans (W3_launch m c main_arg5 (by decide) (by decide) (by decide) (by decide)),
     (h c _ (mem_uc main_arg6 (by decide))).trans (W3_launch m c main_arg6 (by decide) (by decide) (by decide) (by decide))⟩)
    (run_all m ρ)

/-- THE FRAME: every argument ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2) (run_named m ρ)

end Cert.KernelIdeal.Hand

end
-- ==== Proof.Spec.lean ====
/-
  The LSTM cell as ONE function of its arguments, index by index, on the extended reals.

  `gates[p, g] = (Σ_k x[p,k]·W_x[g,k] + Σ_k h[p,k]·W_h[g,k]) + b_x[g] + b_h[g]` over 4096 rows and 8192 gate columns,
  the columns in four bands of 2048: input, forget, candidate, output. With `σ` the logistic function,
  `c'[p,q] = σ(gates[p, 2048+q])·c[p,q] + σ(gates[p, q])·tanh(gates[p, 4096+q])` and
  `h'[p,q] = σ(gates[p, 6144+q])·tanh(c'[p,q])`.
-/
import Idealize.ShloMosaic.PureOps.Ideal
import Idealize.ShloMosaic.Lib.ValueIdx

noncomputable section

open scoped BigOperators

namespace Cert.Spec

open Idealize.ShloMosaic Idealize.ShloMosaic.ValueIdx

abbrev SB : Shape := ⟨2, ![4096, 2048]⟩
abbrev SW : Shape := ⟨2, ![8192, 2048]⟩
abbrev Sv : Shape := ⟨1, ![8192]⟩
abbrev SG : Shape := ⟨2, ![4096, 8192]⟩

/-- Column `q` of gate band `j`. -/
def gcol (j : Fin 4) (q : Fin 2048) : Fin 8192 := ⟨2048 * j.val + q.val, by omega⟩

/-- One entry of the gate array. -/
def gateAt (x h : SB.Idx → EReal) (Wx Wh : SW.Idx → EReal) (bx bh : Sv.Idx → EReal) (p : Fin 4096) (g : Fin 8192) : EReal :=
  ((∑ k : Fin 2048, x (ix2 p k) * Wx (ix2 g k)) + (∑ k : Fin 2048, h (ix2 p k) * Wh (ix2 g k))) + bx (ix1 g) + bh (ix1 g)

/-- The gate array. -/
def gates (x h : SB.Idx → EReal) (Wx Wh : SW.Idx → EReal) (bx bh : Sv.Idx → EReal) : SG.Idx → EReal :=
  fun i => gateAt x h Wx Wh bx bh (i 0) (i 1)

/-- One entry of the new cell state, of a gate array `G` and the old cell state `c`. -/
def cNewAt (G : SG.Idx → EReal) (c : SB.Idx → EReal) (p : Fin 4096) (q : Fin 2048) : EReal :=
  Ideal.logistic (G (ix2 p (gcol 1 q))) * c (ix2 p q) + Ideal.logistic (G (ix2 p (gcol 0 q))) * Ideal.tanh (G (ix2 p (gcol 2 q)))

/-- One entry of the new hidden state. -/
def hNewAt (G : SG.Idx → EReal) (c : SB.Idx → EReal) (p : Fin 4096) (q : Fin 2048) : EReal :=
  Ideal.logistic (G (ix2 p (gcol 3 q))) * Ideal.tanh (cNewAt G c p q)

def cNew (G : SG.Idx → EReal) (c : SB.Idx → EReal) : SB.Idx → EReal := fun i => cNewAt G c (i 0) (i 1)
def hNew (G : SG.Idx → EReal) (c : SB.Idx → EReal) : SB.Idx → EReal := fun i => hNewAt G c (i 0) (i 1)

end Cert.Spec

end
-- ==== Proof.KI.Value0.lean ====
/-
  What region 0 leaves in the gate array, at the exact instance: entry `(p, g)` is the specification's
  `gateAt` of the launch arrays. The block written back at an odd point `t` (row block `t / 16`, column block
  `t / 2 % 8`) holds, at `(r, s)`, zero plus the four partial products of the two K-blocks plus the two bias entries;
  the extended reals' addition is commutative and associative and a sum over 2048 splits into the sums over its two
  halves, so that is `gateAt` at row `512·(t/16) + r`, column `1024·(t/2 % 8) + s`; the odd points' blocks tile the array.
-/
import proofs.«181704_j25950192402731_1_alg».proof.Proof.KI.Data
import proofs.«181704_j25950192402731_1_alg».proof.Proof.KI.Reg0
import proofs.«181704_j25950192402731_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ)

namespace Value0

/-! ## The payloads at an index -/

/-- The block product's operand indices, axis by axis: the left operand is read at the output's row and the contracted
    position, the right operand at the contracted position and the output's column. -/
theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a 512×1024 block with a 1024×1024 block into the zero accumulator, at `(r, s)`: the sum over the
    shared axis. -/
theorem mm_apply (x : FVec Ideal S512x1024 .bf16) (w : FVec Ideal S1024x1024 .bf16) (r : Fin 512) (s : Fin 1024) :
    (matmul dot_S512x1024_S1024x1024_S512x1024_1_0_0_1_n_n none x w (constant (F := Ideal) S512x1024 .f32 0x00000000#32)) (ix2 r s)
      = ∑ k : Fin 1024, x (ix2 r k) * w (ix2 k s) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r s) ((ValueIdx.contrEquiv1 dot_S512x1024_S1024x1024_S512x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 r s) ((ValueIdx.contrEquiv1 dot_S512x1024_S1024x1024_S512x1024_1_0_0_1_n_n 1024 rfl rfl).symm k) = ix2 k s := funext fun a => Fin.ext (by
    match a with
    | ⟨0, _⟩ => exact (rhs_mm_0 _ _).trans hk
    | ⟨1, _⟩ => exact rhs_mm_1 _ _)
  rw [el, er]

/-- The reset value is zero everywhere. -/
theorem pay1_apply (r : Fin 512) (s : Fin 1024) : (k0_pay1 (F := Ideal)) (ix2 r s) = 0 := by
  unfold k0_pay1
  rw [shapeCast_self]
  exact Ideal.ofBits_zero_f32

/-- One half K-step at `(r, s)`: the running sum plus the block product. -/
theorem pay2_apply (a : FVec Ideal S512x1024 .f32) (x : FVec Ideal S512x1024 .bf16) (w : FVec Ideal S1024x1024 .bf16)
    (r : Fin 512) (s : Fin 1024) :
    k0_pay2 a x w (ix2 r s) = a (ix2 r s) + ∑ k : Fin 1024, x (ix2 r k) * w (ix2 k s) := by
  unfold k0_pay2
  rw [shapeCast_self, shapeCast_self, shapeCast_self]
  exact congrArg (a (ix2 r s) + ·) (mm_apply x w r s)

theorem pay3_apply (a : FVec Ideal S512x1024 .f32) (x : FVec Ideal S512x1024 .bf16) (w : FVec Ideal S1024x1024 .bf16)
    (r : Fin 512) (s : Fin 1024) :
    k0_pay3 a x w (ix2 r s) = a (ix2 r s) + ∑ k : Fin 1024, x (ix2 r k) * w (ix2 k s) := by
  unfold k0_pay3
  rw [shapeCast_self, shapeCast_self, shapeCast_self]
  exact congrArg (a (ix2 r s) + ·) (mm_apply x w r s)

/-- The stored block at `(r, s)`: the running sum plus the two bias rows' entries at column `s`. -/
theorem pay4_apply (a : FVec Ideal S512x1024 .f32) (bx bh : FVec Ideal S1x1024 .f32) (r : Fin 512) (s : Fin 1024) :
    k0_pay4 a bx bh (ix2 r s) = a (ix2 r s) + bx (ix2 (0 : Fin 1) s) + bh (ix2 (0 : Fin 1) s) := by
  unfold k0_pay4
  rw [shapeCast_self, shapeCast_self]
  show (a (ix2 r s) + broadcastTo S512x1024 bx broadcasts_S1x1024_S512x1024 (ix2 r s)) + broadcastTo S512x1024 bh broadcasts_S1x1024_S512x1024 (ix2 r s) = _
  rw [broadcastTo_1b_ab_apply, broadcastTo_1b_ab_apply]

/-- One K-step at `(r, s)`. -/
theorem kstep_apply (a : FVec Ideal S512x1024 .f32) (x h : FVec Ideal S512x1024 .bf16) (wx wh : FVec Ideal S1024x1024 .bf16)
    (r : Fin 512) (s : Fin 1024) :
    kstep (F := Ideal) a x wx h wh (ix2 r s)
      = (a (ix2 r s) + ∑ k : Fin 1024, x (ix2 r k) * wx (ix2 k s)) + ∑ k : Fin 1024, h (ix2 r k) * wh (ix2 k s) := by
  unfold kstep
  rw [pay3_apply, pay2_apply]

/-! ## The operand arrays as region 0 finds them, and their blocks -/

/-- The converted `x` is `x`: at the exact instance a change of format keeps the value. -/
theorem v0_apply (c : Dev nD) (i : S4096x2048.Idx) :
    (Vr1 m c main_v0 : S4096x2048.Idx → EReal) i = (m ((c : Thread nD τ).loc main_arg0) : S4096x2048.Idx → EReal) i := by
  have e : (Vr1 m c main_v0 : S4096x2048.Idx → EReal)
      = truncf (F := Ideal) .bf16 (m ((c : Thread nD τ).loc main_arg0) : FVec Ideal S4096x2048 .f32) bitsLt_bf16_f32 := by
    dsimp only [Vr1, V1, hostOps0]; after_results
  rw [e]; rfl

theorem v1_apply (c : Dev nD) (i : S4096x2048.Idx) :
    (Vr1 m c main_v1 : S4096x2048.Idx → EReal) i = (m ((c : Thread nD τ).loc main_arg1) : S4096x2048.Idx → EReal) i := by
  have e : (Vr1 m c main_v1 : S4096x2048.Idx → EReal)
      = truncf (F := Ideal) .bf16 (m ((c : Thread nD τ).loc main_arg1) : FVec Ideal S4096x2048 .f32) bitsLt_bf16_f32 := by
    dsimp only [Vr1, V1, hostOps0]; after_results
  rw [e]; rfl

/-- The transposed, converted `W_x` at `(k, g)` is `W_x` at `(g, k)`. -/
theorem v3_apply (c : Dev nD) (k : Fin 2048) (g : Fin 8192) :
    (Vr1 m c main_v3 : S2048x8192.Idx → EReal) (ix2 k g) = (m ((c : Thread nD τ).loc main_arg3) : S8192x2048.Idx → EReal) (ix2 g k) := by
  have e : (Vr1 m c main_v3 : S2048x8192.Idx → EReal)
      = truncf (F := Ideal) .bf16 (transpose S2048x8192 [1, 0] (m ((c : Thread nD τ).loc main_arg3) : FVec Ideal S8192x2048 .f32) transposes_S8192x2048_S2048x8192_1_0) bitsLt_bf16_f32 := by
    dsimp only [Vr1, V1, hostOps0]; after_results
  rw [e]
  exact transpose_ix2_apply _ _ k g

theorem v5_apply (c : Dev nD) (k : Fin 2048) (g : Fin 8192) :
    (Vr1 m c main_v5 : S2048x8192.Idx → EReal) (ix2 k g) = (m ((c : Thread nD τ).loc main_arg5) : S8192x2048.Idx → EReal) (ix2 g k) := by
  have e : (Vr1 m c main_v5 : S2048x8192.Idx → EReal)
      = truncf (F := Ideal) .bf16 (transpose S2048x8192 [1, 0] (m ((c : Thread nD τ).loc main_arg5) : FVec Ideal S8192x2048 .f32) transposes_S8192x2048_S2048x8192_1_0) bitsLt_bf16_f32 := by
    dsimp only [Vr1, V1, hostOps0]; after_results
  rw [e]
  exact transpose_ix2_apply _ _ k g

/-- The bias reshaped to one row reads, at `(0, g)`, the bias at `g`. -/
theorem v6_apply (c : Dev nD) (u : Fin 1) (g : Fin 8192) :
    (Vr1 m c main_v6 : S1x8192.Idx → EReal) (ix2 u g) = (m ((c : Thread nD τ).loc main_arg4) : S8192.Idx → EReal) (ix1 g) := by
  have e : (Vr1 m c main_v6 : S1x8192.Idx → EReal)
      = shapeCast S1x8192 (m ((c : Thread nD τ).loc main_arg4) : S8192.Idx → EReal) shapeCasts_S8192_S1x8192 := by
    dsimp only [Vr1, V1, hostOps0]; after_results; rfl
  rw [e]
  exact shapeCast_a_1a_apply _ _ u g

theorem v7_apply (c : Dev nD) (u : Fin 1) (g : Fin 8192) :
    (Vr1 m c main_v7 : S1x8192.Idx → EReal) (ix2 u g) = (m ((c : Thread nD τ).loc main_arg6) : S8192.Idx → EReal) (ix1 g) := by
  have e : (Vr1 m c main_v7 : S1x8192.Idx → EReal)
      = shapeCast S1x8192 (m ((c : Thread nD τ).loc main_arg6) : S8192.Idx → EReal) shapeCasts_S8192_S1x8192 := by
    dsimp only [Vr1, V1, hostOps0]; after_results; rfl
  rw [e]
  exact shapeCast_a_1a_apply _ _ u g

/-- The printed index maps, decided over the grid: point `t` has row block `t / 16`, column block `t / 2 % 8` and
    K-block `t % 2`. -/
theorem idx_facts : ∀ t : Fin cfg0.N,
    win0_0.index t (0 : Fin 2) = t.val / 16 ∧ win0_0.index t (1 : Fin 2) = t.val % 2
    ∧ win0_1.index t (0 : Fin 2) = t.val / 16 ∧ win0_1.index t (1 : Fin 2) = t.val % 2
    ∧ win0_2.index t (0 : Fin 2) = t.val % 2 ∧ win0_2.index t (1 : Fin 2) = t.val / 2 % 8
    ∧ win0_3.index t (0 : Fin 2) = t.val % 2 ∧ win0_3.index t (1 : Fin 2) = t.val / 2 % 8
    ∧ win0_4.index t (0 : Fin 2) = 0 ∧ win0_4.index t (1 : Fin 2) = t.val / 2 % 8
    ∧ win0_5.index t (0 : Fin 2) = 0 ∧ win0_5.index t (1 : Fin 2) = t.val / 2 % 8
    ∧ win0_6.index t (0 : Fin 2) = t.val / 16 ∧ win0_6.index t (1 : Fin 2) = t.val / 2 % 8 :=
  (by decide +kernel : ∀ t : Fin grid0.N, _)

/-- The `x` block at point `t`, at `(r, k)`. -/
theorem blk0_apply (c : Dev nD) (t : Fin cfg0.N) (r : Fin 512) (k : Fin 1024) (p : Fin 4096) (q : Fin 2048)
    (hp : p.val = 512 * (t.val / 16) + r.val) (hq : q.val = 1024 * (t.val % 2) + k.val) :
    (iblk0 (Vr1 m) c 0 t : Vec Ideal S512x1024 .bf16) (ix2 r k)
      = (m ((c : Thread nD τ).loc main_arg0) : S4096x2048.Idx → EReal) (ix2 p q) := by
  obtain ⟨e0, e1, -⟩ := idx_facts t
  unfold iblk0
  rw [View.read_apply]
  show (Vr1 m c main_v0 : S4096x2048.Idx → EReal) _ = _
  refine (congrArg (Vr1 m c main_v0 : S4096x2048.Idx → EReal) ?_).trans (v0_apply m c (ix2 p q))
  funext a; apply Fin.ext
  match a with
  | ⟨0, _⟩ => show win0_0.index t (0 : Fin 2) * 512 + 1 * r.val = p.val; rw [e0, hp]; omega
  | ⟨1, _⟩ => show win0_0.index t (1 : Fin 2) * 1024 + 1 * k.val = q.val; rw [e1, hq]; omega

theorem blk1_apply (c : Dev nD) (t : Fin cfg0.N) (r : Fin 512) (k : Fin 1024) (p : Fin 4096) (q : Fin 2048)
    (hp : p.val = 512 * (t.val / 16) + r.val) (hq : q.val = 1024 * (t.val % 2) + k.val) :
    (iblk0 (Vr1 m) c 1 t : Vec Ideal S512x1024 .bf16) (ix2 r k)
      = (m ((c : Thread nD τ).loc main_arg1) : S4096x2048.Idx → EReal) (ix2 p q) := by
  obtain ⟨-, -, e0, e1, -⟩ := idx_facts t
  unfold iblk0
  rw [View.read_apply]
  show (Vr1 m c main_v1 : S4096x2048.Idx → EReal) _ = _
  refine (congrArg (Vr1 m c main_v1 : S4096x2048.Idx → EReal) ?_).trans (v1_apply m c (ix2 p q))
  funext a; apply Fin.ext
  match a with
  | ⟨0, _⟩ => show win0_1.index t (0 : Fin 2) * 512 + 1 * r.val = p.val; rw [e0, hp]; omega
  | ⟨1, _⟩ => show win0_1.index t (1 : Fin 2) * 1024 + 1 * k.val = q.val; rw [e1, hq]; omega

/-- The `W_x` block at point `t`, at `(k, s)`: the weight at gate column `1024·(t/2 % 8) + s`, input `1024·(t % 2) + k`. -/
theorem blk2_apply (c : Dev nD) (t : Fin cfg0.N) (k : Fin 1024) (s : Fin 1024) (g : Fin 8192) (q : Fin 2048)
    (hg : g.val = 1024 * (t.val / 2 % 8) + s.val) (hq : q.val = 1024 * (t.val % 2) + k.val) :
    (iblk0 (Vr1 m) c 2 t : Vec Ideal S1024x1024 .bf16) (ix2 k s)
      = (m ((c : Thread nD τ).loc main_arg3) : S8192x2048.Idx → EReal) (ix2 g q) := by
  obtain ⟨-, -, -, -, e0, e1, -⟩ := idx_facts t
  unfold iblk0
  rw [View.read_apply]
  show (Vr1 m c main_v3 : S2048x8192.Idx → EReal) _ = _
  refine (congrArg (Vr1 m c main_v3 : S2048x8192.Idx → EReal) ?_).trans (v3_apply m c q g)
  funext a; apply Fin.ext
  match a with
  | ⟨0, _⟩ => show win0_2.index t (0 : Fin 2) * 1024 + 1 * k.val = q.val; rw [e0, hq]; omega
  | ⟨1, _⟩ => show win0_2.index t (1 : Fin 2) * 1024 + 1 * s.val = g.val; rw [e1, hg]; omega

theorem blk3_apply (c : Dev nD) (t : Fin cfg0.N) (k : Fin 1024) (s : Fin 1024) (g : Fin 8192) (q : Fin 2048)
    (hg : g.val = 1024 * (t.val / 2 % 8) + s.val) (hq : q.val = 1024 * (t.val % 2) + k.val) :
    (iblk0 (Vr1 m) c 3 t : Vec Ideal S1024x1024 .bf16) (ix2 k s)
      = (m ((c : Thread nD τ).loc main_arg5) : S8192x2048.Idx → EReal) (ix2 g q) := by
  obtain ⟨-, -, -, -, -, -, e0, e1, -⟩ := idx_facts t
  unfold iblk0
  rw [View.read_apply]
  show (Vr1 m c main_v5 : S2048x8192.Idx → EReal) _ = _
  refine (congrArg (Vr1 m c main_v5 : S2048x8192.Idx → EReal) ?_).trans (v5_apply m c q g)
  funext a; apply Fin.ext
  match a with
  | ⟨0, _⟩ => show win0_3.index t (0 : Fin 2) * 1024 + 1 * k.val = q.val; rw [e0, hq]; omega
  | ⟨1, _⟩ => show win0_3.index t (1 : Fin 2) * 1024 + 1 * s.val = g.val; rw [e1, hg]; omega

/-- The first bias row's block at point `t`, at column `s`. -/
theorem blk4_apply (c : Dev nD) (t : Fin cfg0.N) (s : Fin 1024) (g : Fin 8192)
    (hg : g.val = 1024 * (t.val / 2 % 8) + s.val) :
    (iblk0 (Vr1 m) c 4 t : Vec Ideal S1x1024 .f32) (ix2 (0 : Fin 1) s)
      = (m ((c : Thread nD τ).loc main_arg4) : S8192.Idx → EReal) (ix1 g) := by
  obtain ⟨-, -, -, -, -, -, -, -, e0, e1, -⟩ := idx_facts t
  unfold iblk0
  rw [View.read_apply]
  show (Vr1 m c main_v6 : S1x8192.Idx → EReal) _ = _
  refine (congrArg (Vr1 m c main_v6 : S1x8192.Idx → EReal) ?_).trans (v6_apply m c (0 : Fin 1) g)
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 1024 + 1 * s.val = g.val; rw [e1, hg]; omega

theorem blk5_apply (c : Dev nD) (t : Fin cfg0.N) (s : Fin 1024) (g : Fin 8192)
    (hg : g.val = 1024 * (t.val / 2 % 8) + s.val) :
    (iblk0 (Vr1 m) c 5 t : Vec Ideal S1x1024 .f32) (ix2 (0 : Fin 1) s)
      = (m ((c : Thread nD τ).loc main_arg6) : S8192.Idx → EReal) (ix1 g) := by
  obtain ⟨-, -, -, -, -, -, -, -, -, -, e0, e1, -⟩ := idx_facts t
  unfold iblk0
  rw [View.read_apply]
  show (Vr1 m c main_v7 : S1x8192.Idx → EReal) _ = _
  refine (congrArg (Vr1 m c main_v7 : S1x8192.Idx → EReal) ?_).trans (v7_apply m c (0 : Fin 1) g)
  funext a; apply Fin.ext
  match a with
  | ⟨0, _⟩ => show win0_5.index t (0 : Fin 2) * 1 + 1 * (0 : Fin 1).val = (0 : Fin 1).val; rw [e0]; rfl
  | ⟨1, _⟩ => show win0_5.index t (1 : Fin 2) * 1024 + 1 * s.val = g.val; rw [e1, hg]; omega

/-! ## The scratch at an odd point, and the stored block at an index -/

section Acc

variable {F : FTy → Type} [FloatOps F]
variable (V : (c : Dev nD) → (b : Ref sig .tc) → Buf (Elt F) ((c : Thread nD τ).loc b))

/-- At an even point the scratch is one K-step from zero. -/
theorem accAt_even (c : Dev nD) : ∀ (n : ℕ) (h : n < cfg0.N), n % 2 = 0 →
    accAt V c n h = kstep (k0_pay1 (F := F)) (iblk0 V c 0 ⟨n, h⟩) (iblk0 V c 2 ⟨n, h⟩) (iblk0 V c 1 ⟨n, h⟩) (iblk0 V c 3 ⟨n, h⟩)
  | 0, h, _ => rfl
  | n + 1, h, he => by rw [accAt, if_pos he]

/-- At an odd point it is one K-step from what the point before left. -/
theorem accAt_odd (c : Dev nD) (n : ℕ) (h : n + 1 < cfg0.N) (ho : (n + 1) % 2 = 1) :
    accAt V c (n + 1) h = kstep (accAt V c n (Nat.lt_of_succ_lt h)) (iblk0 V c 0 ⟨n + 1, h⟩) (iblk0 V c 2 ⟨n + 1, h⟩)
      (iblk0 V c 1 ⟨n + 1, h⟩) (iblk0 V c 3 ⟨n + 1, h⟩) := by
  rw [accAt, if_neg (by omega)]

/-- The block stored at an odd point: two K-steps from zero, plus the bias rows. -/
theorem out6At_odd (c : Dev nD) (n : ℕ) (h : n + 1 < cfg0.N) (hn : n % 2 = 0) :
    out6At V c ⟨n + 1, h⟩
      = k0_pay4 (kstep (kstep (k0_pay1 (F := F)) (iblk0 V c 0 ⟨n, Nat.lt_of_succ_lt h⟩) (iblk0 V c 2 ⟨n, Nat.lt_of_succ_lt h⟩)
            (iblk0 V c 1 ⟨n, Nat.lt_of_succ_lt h⟩) (iblk0 V c 3 ⟨n, Nat.lt_of_succ_lt h⟩))
          (iblk0 V c 0 ⟨n + 1, h⟩) (iblk0 V c 2 ⟨n + 1, h⟩) (iblk0 V c 1 ⟨n + 1, h⟩) (iblk0 V c 3 ⟨n + 1, h⟩))
        (iblk0 V c 4 ⟨n + 1, h⟩) (iblk0 V c 5 ⟨n + 1, h⟩) := by
  unfold out6At
  show k0_pay4 (accAt V c (n + 1) h) _ _ = _
  rw [accAt_odd V c n h (by omega), accAt_even V c n _ hn]

end Acc

/-- Two K-steps from zero plus the bias rows, at `(r, s)`, over any blocks. -/
theorem chain_apply (x0 h0 x1 h1 : FVec Ideal S512x1024 .bf16) (wx0 wh0 wx1 wh1 : FVec Ideal S1024x1024 .bf16)
    (bx bh : FVec Ideal S1x1024 .f32) (r : Fin 512) (s : Fin 1024) :
    k0_pay4 (kstep (F := Ideal) (kstep (F := Ideal) (k0_pay1 (F := Ideal)) x0 wx0 h0 wh0) x1 wx1 h1 wh1) bx bh (ix2 r s)
      = ((((0 + ∑ k : Fin 1024, x0 (ix2 r k) * wx0 (ix2 k s)) + ∑ k : Fin 1024, h0 (ix2 r k) * wh0 (ix2 k s))
          + ∑ k : Fin 1024, x1 (ix2 r k) * wx1 (ix2 k s)) + ∑ k : Fin 1024, h1 (ix2 r k) * wh1 (ix2 k s))
        + bx (ix2 (0 : Fin 1) s) + bh (ix2 (0 : Fin 1) s) := by
  rw [pay4_apply, kstep_apply, kstep_apply, pay1_apply]

/-- A sum over 2048 is the sum over its first half plus the sum over its second. -/
theorem sum_halves {M : Type} [AddCommMonoid M] (f : Fin 2048 → M) :
    ∑ k : Fin 2048, f k = ∑ k : Fin 1024, f (Fin.castAdd 1024 k) + ∑ k : Fin 1024, f (Fin.natAdd 1024 k) :=
  Fin.sum_univ_add (a := 1024) (b := 1024) f

/-- The accumulation order against the specification's: commutativity and associativity only. -/
theorem rearrange {M : Type} [AddCommMonoid M] (a0 b0 a1 b1 u v : M) :
    ((((0 + a0) + b0) + a1) + b1) + u + v = ((a0 + a1) + (b0 + b1)) + u + v := by
  rw [zero_add, add_assoc (a0 + b0) a1 b1, add_add_add_comm]

/-- Two K-steps from zero plus the bias rows, over blocks that read the six arrays at row `p`, gate column `g` and the two
    halves of the contracted axis, is the specification's entry at `(p, g)`. -/
theorem gate_of_blocks (X H : S4096x2048.Idx → EReal) (Wx Wh : S8192x2048.Idx → EReal) (bx bh : S8192.Idx → EReal)
    (x0 h0 x1 h1 : FVec Ideal S512x1024 .bf16) (wx0 wh0 wx1 wh1 : FVec Ideal S1024x1024 .bf16)
    (b4 b5 : FVec Ideal S1x1024 .f32) (r : Fin 512) (s : Fin 1024) (p : Fin 4096) (g : Fin 8192)
    (hx0 : ∀ k : Fin 1024, x0 (ix2 r k) = X (ix2 p (Fin.castAdd 1024 k)))
    (hwx0 : ∀ k : Fin 1024, wx0 (ix2 k s) = Wx (ix2 g (Fin.castAdd 1024 k)))
    (hh0 : ∀ k : Fin 1024, h0 (ix2 r k) = H (ix2 p (Fin.castAdd 1024 k)))
    (hwh0 : ∀ k : Fin 1024, wh0 (ix2 k s) = Wh (ix2 g (Fin.castAdd 1024 k)))
    (hx1 : ∀ k : Fin 1024, x1 (ix2 r k) = X (ix2 p (Fin.natAdd 1024 k)))
    (hwx1 : ∀ k : Fin 1024, wx1 (ix2 k s) = Wx (ix2 g (Fin.natAdd 1024 k)))
    (hh1 : ∀ k : Fin 1024, h1 (ix2 r k) = H (ix2 p (Fin.natAdd 1024 k)))
    (hwh1 : ∀ k : Fin 1024, wh1 (ix2 k s) = Wh (ix2 g (Fin.natAdd 1024 k)))
    (hb4 : b4 (ix2 (0 : Fin 1) s) = bx (ix1 g)) (hb5 : b5 (ix2 (0 : Fin 1) s) = bh (ix1 g)) :
    k0_pay4 (kstep (F := Ideal) (kstep (F := Ideal) (k0_pay1 (F := Ideal)) x0 wx0 h0 wh0) x1 wx1 h1 wh1) b4 b5 (ix2 r s)
      = Cert.Spec.gateAt X H Wx Wh bx bh p g := by
  rw [chain_apply]
  unfold Cert.Spec.gateAt
  rw [sum_halves, sum_halves, rearrange, hb4, hb5,
    Finset.sum_congr rfl fun k _ => congrArg₂ (· * ·) (hx0 k) (hwx0 k),
    Finset.sum_congr rfl fun k _ => congrArg₂ (· * ·) (hh0 k) (hwh0 k),
    Finset.sum_congr rfl fun k _ => congrArg₂ (· * ·) (hx1 k) (hwx1 k),
    Finset.sum_congr rfl fun k _ => congrArg₂ (· * ·) (hh1 k) (hwh1 k)]

/-! ## The stored block is the specification's, and the odd points' blocks tile the array -/

/-- The specification's gate array of the launch arrays. -/
abbrev G0 (c : Dev nD) : S4096x8192.Idx → EReal :=
  Cert.Spec.gates (m ((c : Thread nD τ).loc main_arg0)) (m ((c : Thread nD τ).loc main_arg1))
    (m ((c : Thread nD τ).loc main_arg3)) (m ((c : Thread nD τ).loc main_arg5))
    (m ((c : Thread nD τ).loc main_arg4)) (m ((c : Thread nD τ).loc main_arg6))

/-- The block stored at an odd point `t`, at `(r, s)`, is the specification's entry at row `512·(t/16) + r`, column
    `1024·(t/2 % 8) + s`. -/
theorem out6_apply (c : Dev nD) (t : Fin cfg0.N) (ht : t.val % 2 = 1) (r : Fin 512) (s : Fin 1024) (p : Fin 4096) (g : Fin 8192)
    (hp : p.val = 512 * (t.val / 16) + r.val) (hg : g.val = 1024 * (t.val / 2 % 8) + s.val) :
    (out6At (Vr1 m) c t : Vec Ideal S512x1024 .f32) (ix2 r s)
      = Cert.Spec.gateAt (m ((c : Thread nD τ).loc main_arg0)) (m ((c : Thread nD τ).loc main_arg1))
          (m ((c : Thread nD τ).loc main_arg3)) (m ((c : Thread nD τ).loc main_arg5))
          (m ((c : Thread nD τ).loc main_arg4)) (m ((c : Thread nD τ).loc main_arg6)) p g := by
  obtain ⟨tv, hlt⟩ := t
  obtain ⟨n, rfl⟩ : ∃ n, tv = n + 1 := ⟨tv - 1, by dsimp only at ht; omega⟩
  dsimp only at ht hp hg
  have hn : n % 2 = 0 := by omega
  have hlt' : n < cfg0.N := Nat.lt_of_succ_lt hlt
  have hp' : p.val = 512 * (n / 16) + r.val := by omega
  have hg' : g.val = 1024 * (n / 2 % 8) + s.val := by omega
  have hc : ∀ k : Fin 1024, (Fin.castAdd 1024 k).val = 1024 * (n % 2) + k.val := fun k => by
    show k.val = _; omega
  have hd : ∀ k : Fin 1024, (Fin.natAdd 1024 k).val = 1024 * ((n + 1) % 2) + k.val := fun k => by
    show 1024 + k.val = _; omega
  refine (congrFun (out6At_odd (Vr1 m) c n hlt hn) (ix2 r s)).trans ?_
  exact gate_of_blocks (m ((c : Thread nD τ).loc main_arg0)) (m ((c : Thread nD τ).loc main_arg1))
    (m ((c : Thread nD τ).loc main_arg3)) (m ((c : Thread nD τ).loc main_arg5))
    (m ((c : Thread nD τ).loc main_arg4)) (m ((c : Thread nD τ).loc main_arg6))
    (iblk0 (Vr1 m) c 0 ⟨n, hlt'⟩) (iblk0 (Vr1 m) c 1 ⟨n, hlt'⟩) (iblk0 (Vr1 m) c 0 ⟨n + 1, hlt⟩) (iblk0 (Vr1 m) c 1 ⟨n + 1, hlt⟩)
    (iblk0 (Vr1 m) c 2 ⟨n, hlt'⟩) (iblk0 (Vr1 m) c 3 ⟨n, hlt'⟩) (iblk0 (Vr1 m) c 2 ⟨n + 1, hlt⟩) (iblk0 (Vr1 m) c 3 ⟨n + 1, hlt⟩)
    (iblk0 (Vr1 m) c 4 ⟨n + 1, hlt⟩) (iblk0 (Vr1 m) c 5 ⟨n + 1, hlt⟩) r s p g
    (fun k => blk0_apply m c ⟨n, hlt'⟩ r k p (Fin.castAdd 1024 k) hp' (hc k))
    (fun k => blk2_apply m c ⟨n, hlt'⟩ k s g (Fin.castAdd 1024 k) hg' (hc k))
    (fun k => blk1_apply m c ⟨n, hlt'⟩ r k p (Fin.castAdd 1024 k) hp' (hc k))
    (fun k => blk3_apply m c ⟨n, hlt'⟩ k s g (Fin.castAdd 1024 k) hg' (hc k))
    (fun k => blk0_apply m c ⟨n + 1, hlt⟩ r k p (Fin.natAdd 1024 k) hp (hd k))
    (fun k => blk2_apply m c ⟨n + 1, hlt⟩ k s g (Fin.natAdd 1024 k) hg (hd k))
    (fun k => blk1_apply m c ⟨n + 1, hlt⟩ r k p (Fin.natAdd 1024 k) hp (hd k))
    (fun k => blk3_apply m c ⟨n + 1, hlt⟩ k s g (Fin.natAdd 1024 k) hg (hd k))
    (blk4_apply m c ⟨n + 1, hlt⟩ s g hg) (blk5_apply m c ⟨n + 1, hlt⟩ s g hg)

/-- What an odd point writes back is its block of the specification's gate array. -/
theorem flushed6_eq (c : Dev nD) (t : Fin cfg0.N) (hf : (cfg0.win 6).flush t = true) :
    (dat0 (Vr1 m) c).flushed 6 t = ((cfg0.win 6).blk t).view.read (Elt Ideal) (G0 m c) := by
  have ht : t.val % 2 = 1 := (flush0_6 t).mp hf
  obtain ⟨-, -, -, -, -, -, -, -, -, -, -, -, e0, e1⟩ := idx_facts t
  have htl : t.val < 128 := (N_0 : grid0.N = 128) ▸ t.isLt
  show (cfg0.win 6).cut (grid0.coords t) ((dat0 (Vr1 m) c).after 6 t) = _
  rw [after0_6]
  funext j
  obtain ⟨r, s, rfl⟩ : ∃ (r : Fin 512) (s : Fin 1024), j = ix2 r s := ⟨j 0, j 1, eq_ix2 j⟩
  have hr := r.isLt
  have hs := s.isLt
  rw [View.read_apply]
  show (out6At (Vr1 m) c t : Vec Ideal S512x1024 .f32) (ix2 r s) = G0 m c (((cfg0.win 6).blk t).view.emb (ix2 r s))
  refine (out6_apply m c t ht r s ⟨512 * (t.val / 16) + r.val, by omega⟩ ⟨1024 * (t.val / 2 % 8) + s.val, by omega⟩ rfl rfl).trans ?_
  show Cert.Spec.gateAt _ _ _ _ _ _ _ _
    = Cert.Spec.gateAt _ _ _ _ _ _ ((((cfg0.win 6).blk t).view.emb (ix2 r s)) 0) ((((cfg0.win 6).blk t).view.emb (ix2 r s)) 1)
  congr 1 <;> apply Fin.ext
  · show 512 * (t.val / 16) + r.val = win0_6.index t (0 : Fin 2) * 512 + 1 * r.val; rw [e0]; omega
  · show 1024 * (t.val / 2 % 8) + s.val = win0_6.index t (1 : Fin 2) * 1024 + 1 * s.val; rw [e1]; omega

/-- An index of the gate array is in point `t`'s block iff each coordinate is in the block's range on its axis. -/
theorem mem_blk6 (t : Fin cfg0.N) (i : S4096x8192.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v8).slice (win0_6.rect t)).set ↔ _
  rw [View.set_slice_whole, Rect.mem_set_unit]
  exact Iff.rfl

/-- Every index of the gate array is in the block of an odd point: row block `p / 512`, column block `g / 1024`, at
    `k = 1`. -/
theorem cover6 (i : S4096x8192.Idx) : ∃ t : Fin cfg0.N, (cfg0.win 6).flush t = true ∧ i ∈ ((cfg0.win 6).blk t).view.set := by
  have hN : cfg0.N = 128 := N_0
  have h0 : (i 0).val < 4096 := (i 0).isLt
  have h1 : (i 1).val < 8192 := (i 1).isLt
  obtain ⟨tv, htv⟩ : ∃ tv, tv = 16 * ((i 0).val / 512) + 2 * ((i 1).val / 1024) + 1 := ⟨_, rfl⟩
  have hlt : tv < cfg0.N := by rw [hN]; omega
  obtain ⟨-, -, -, -, -, -, -, -, -, -, -, -, e0, e1⟩ := idx_facts ⟨tv, hlt⟩
  dsimp only at e0 e1
  refine ⟨⟨tv, hlt⟩, (flush0_6 _).mpr (by show tv % 2 = 1; omega), ?_⟩
  rw [mem_blk6]
  intro a
  match a with
  | ⟨0, _⟩ =>
    show win0_6.index ⟨tv, hlt⟩ (0 : Fin 2) * 512 ≤ (i 0).val ∧ (i 0).val < win0_6.index ⟨tv, hlt⟩ (0 : Fin 2) * 512 + 512
    rw [e0]; omega
  | ⟨1, _⟩ =>
    show win0_6.index ⟨tv, hlt⟩ (1 : Fin 2) * 1024 ≤ (i 1).val ∧ (i 1).val < win0_6.index ⟨tv, hlt⟩ (1 : Fin 2) * 1024 + 1024
    rw [e1]; omega

end Value0

open Value0 in
/-- The gate array after region 0 is the specification's gate array of the launch arrays. -/
theorem gatesArr_eq (c : Dev nD) :
    (gatesArr (F := Ideal) m c : S4096x8192.Idx → EReal)
      = Cert.Spec.gates (m ((c : Thread nD τ).loc main_arg0)) (m ((c : Thread nD τ).loc main_arg1))
          (m ((c : Thread nD τ).loc main_arg3)) (m ((c : Thread nD τ).loc main_arg5))
          (m ((c : Thread nD τ).loc main_arg4)) (m ((c : Thread nD τ).loc main_arg6)) := by
  unfold gatesArr
  exact (dat0 (Vr1 m) c).arrAt_eq_of_cover 6 (G0 m c) (flushed6_eq m c) cover6

end Cert.KernelIdeal.Hand

end
-- ==== Proof.KI.Value1.lean ====
/-
  What region 1 leaves in the two results, at the exact instance: of the gate array `G` it finds and the cell state
  `c`, entry `(p, q)` of the first result is the specification's `hNewAt G c p q` and of the second `cNewAt G c p q`.
  The body is pointwise; point `t` (row block `t / 2`, column block `t % 2`) reads the gate array at column blocks
  `t % 2`, `2 + t % 2`, `4 + t % 2`, `6 + t % 2`, which are the four gate bands at the block's own columns; the blocks tile
  the results.
-/
import proofs.«181704_j25950192402731_1_alg».proof.Proof.KI.Data
import proofs.«181704_j25950192402731_1_alg».proof.Proof.KI.Reg0
import proofs.«181704_j25950192402731_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ)

/-- The new cell state's payload at an index: the forget gate's logistic times the old cell state, plus the input
    gate's logistic times the candidate's hyperbolic tangent. -/
theorem cellPay_apply (x0 x1 x2 x4 : Vec Ideal S256x1024 .f32) (y : S256x1024.Idx) :
    (k1_pay1 x0 x1 x2 x4 : S256x1024.Idx → EReal) y
      = Ideal.logistic (x1 y) * x4 y + Ideal.logistic (x0 y) * Ideal.tanh (x2 y) := by
  unfold k1_pay1
  simp only [shapeCast_self]
  rfl

/-- The new hidden state's payload at an index: the output gate's logistic times the hyperbolic tangent of the new
    cell state there. -/
theorem hidPay_apply (x0 x1 x3 x2 x4 : Vec Ideal S256x1024 .f32) (y : S256x1024.Idx) :
    (k1_pay2 x0 x1 x3 x2 x4 : S256x1024.Idx → EReal) y
      = Ideal.logistic (x3 y) * Ideal.tanh (Ideal.logistic (x1 y) * x4 y + Ideal.logistic (x0 y) * Ideal.tanh (x2 y)) := by
  unfold k1_pay2
  simp only [shapeCast_self]
  show Ideal.logistic (x3 y) * Ideal.tanh ((k1_pay1 x0 x1 x2 x4 : S256x1024.Idx → EReal) y) = _
  rw [cellPay_apply]

/-- With the five loaded blocks' entries at `y` named as entries of a gate array `G` and a cell state `C` at row `p`,
    column `q` of the four bands, the cell payload there is the specification's entry. -/
theorem cell_point (G : Cert.Spec.SG.Idx → EReal) (C : Cert.Spec.SB.Idx → EReal)
    (x0 x1 x2 x4 : Vec Ideal S256x1024 .f32) (y : S256x1024.Idx) (p : Fin 4096) (q : Fin 2048)
    (h0 : x0 y = G (ix2 p (Cert.Spec.gcol 0 q))) (h1 : x1 y = G (ix2 p (Cert.Spec.gcol 1 q)))
    (h2 : x2 y = G (ix2 p (Cert.Spec.gcol 2 q))) (h4 : x4 y = C (ix2 p q)) :
    (k1_pay1 x0 x1 x2 x4 : S256x1024.Idx → EReal) y = Cert.Spec.cNewAt G C p q := by
  rw [cellPay_apply, h0, h1, h2, h4]
  rfl

/-- Likewise the hidden payload. -/
theorem hid_point (G : Cert.Spec.SG.Idx → EReal) (C : Cert.Spec.SB.Idx → EReal)
    (x0 x1 x3 x2 x4 : Vec Ideal S256x1024 .f32) (y : S256x1024.Idx) (p : Fin 4096) (q : Fin 2048)
    (h0 : x0 y = G (ix2 p (Cert.Spec.gcol 0 q))) (h1 : x1 y = G (ix2 p (Cert.Spec.gcol 1 q)))
    (h2 : x2 y = G (ix2 p (Cert.Spec.gcol 2 q))) (h3 : x3 y = G (ix2 p (Cert.Spec.gcol 3 q)))
    (h4 : x4 y = C (ix2 p q)) :
    (k1_pay2 x0 x1 x3 x2 x4 : S256x1024.Idx → EReal) y = Cert.Spec.hNewAt G C p q := by
  rw [hidPay_apply, h0, h1, h2, h3, h4]
  rfl

/-- The index maps over the grid: point `t` sits at row block `t / 2`, column block `t % 2` in the cell state and both
    results, and in the gate array at the same row block and column blocks `t % 2`, `2 + t % 2`, `4 + t % 2`, `6 + t % 2`. -/
theorem blockIdx : ∀ t : Fin cfg1.N,
    win1_5.index t (0 : Fin 2) = t.val / 2 ∧ win1_5.index t (1 : Fin 2) = t.val % 2
    ∧ win1_6.index t (0 : Fin 2) = t.val / 2 ∧ win1_6.index t (1 : Fin 2) = t.val % 2
    ∧ win1_4.index t (0 : Fin 2) = t.val / 2 ∧ win1_4.index t (1 : Fin 2) = t.val % 2
    ∧ win1_0.index t (0 : Fin 2) = t.val / 2 ∧ win1_0.index t (1 : Fin 2) = t.val % 2
    ∧ win1_1.index t (0 : Fin 2) = t.val / 2 ∧ win1_1.index t (1 : Fin 2) = 2 + t.val % 2
    ∧ win1_2.index t (0 : Fin 2) = t.val / 2 ∧ win1_2.index t (1 : Fin 2) = 4 + t.val % 2
    ∧ win1_3.index t (0 : Fin 2) = t.val / 2 ∧ win1_3.index t (1 : Fin 2) = 6 + t.val % 2 :=
  (by decide +kernel : ∀ t : Fin grid1.N, _)

/-- Window 0's block at point `t` is the gate array's band 0 (input) at the columns of the results' block at `t`. -/
theorem gateBlk0 (c : Dev nD) (t : Fin cfg1.N) (j : S256x1024.Idx) :
    (iblk1 (Vr2 m) c 0 t : Vec Ideal S256x1024 .f32) j
      = gatesArr (F := Ideal) m c (ix2 ((((cfg1.win 5).blk t).view.emb j) 0) (Cert.Spec.gcol 0 ((((cfg1.win 5).blk t).view.emb j) 1))) := by
  unfold iblk1
  rw [View.read_apply]
  show Vr2 m c main_v8 (((cfg1.win 0).blk t).view.emb j) = _
  rw [show Vr2 m c main_v8 = gatesArr (F := Ideal) m c from W2_gates m c]
  obtain ⟨e50, e51, -, -, -, -, e00, e01, e10, e11, e20, e21, e30, e31⟩ := blockIdx t
  congr 1
  funext a
  apply Fin.ext
  match a with
  | ⟨0, _⟩ =>
    show win1_0.index t (0 : Fin 2) * 256 + 1 * (j 0).val = win1_5.index t (0 : Fin 2) * 256 + 1 * (j 0).val
    omega
  | ⟨1, _⟩ =>
    show win1_0.index t (1 : Fin 2) * 1024 + 1 * (j 1).val = 2048 * 0 + (win1_5.index t (1 : Fin 2) * 1024 + 1 * (j 1).val)
    omega

/-- Window 1's block at point `t` is the gate array's band 1 (forget) at the columns of the results' block at `t`. -/
theorem gateBlk1 (c : Dev nD) (t : Fin cfg1.N) (j : S256x1024.Idx) :
    (iblk1 (Vr2 m) c 1 t : Vec Ideal S256x1024 .f32) j
      = gatesArr (F := Ideal) m c (ix2 ((((cfg1.win 5).blk t).view.emb j) 0) (Cert.Spec.gcol 1 ((((cfg1.win 5).blk t).view.emb j) 1))) := by
  unfold iblk1
  rw [View.read_apply]
  show Vr2 m c main_v8 (((cfg1.win 1).blk t).view.emb j) = _
  rw [show Vr2 m c main_v8 = gatesArr (F := Ideal) m c from W2_gates m c]
  obtain ⟨e50, e51, -, -, -, -, e00, e01, e10, e11, e20, e21, e30, e31⟩ := blockIdx t
  congr 1
  funext a
  apply Fin.ext
  match a with
  | ⟨0, _⟩ =>
    show win1_1.index t (0 : Fin 2) * 256 + 1 * (j 0).val = win1_5.index t (0 : Fin 2) * 256 + 1 * (j 0).val
    omega
  | ⟨1, _⟩ =>
    show win1_1.index t (1 : Fin 2) * 1024 + 1 * (j 1).val = 2048 * 1 + (win1_5.index t (1 : Fin 2) * 1024 + 1 * (j 1).val)
    omega

/-- Window 2's block at point `t` is the gate array's band 2 (candidate) at the columns of the results' block at `t`. -/
theorem gateBlk2 (c : Dev nD) (t : Fin cfg1.N) (j : S256x1024.Idx) :
    (iblk1 (Vr2 m) c 2 t : Vec Ideal S256x1024 .f32) j
      = gatesArr (F := Ideal) m c (ix2 ((((cfg1.win 5).blk t).view.emb j) 0) (Cert.Spec.gcol 2 ((((cfg1.win 5).blk t).view.emb j) 1))) := by
  unfold iblk1
  rw [View.read_apply]
  show Vr2 m c main_v8 (((cfg1.win 2).blk t).view.emb j) = _
  rw [show Vr2 m c main_v8 = gatesArr (F := Ideal) m c from W2_gates m c]
  obtain ⟨e50, e51, -, -, -, -, e00, e01, e10, e11, e20, e21, e30, e31⟩ := blockIdx t
  congr 1
  funext a
  apply Fin.ext
  match a with
  | ⟨0, _⟩ =>
    show win1_2.index t (0 : Fin 2) * 256 + 1 * (j 0).val = win1_5.index t (0 : Fin 2) * 256 + 1 * (j 0).val
    omega
  | ⟨1, _⟩ =>
    show win1_2.index t (1 : Fin 2) * 1024 + 1 * (j 1).val = 2048 * 2 + (win1_5.index t (1 : Fin 2) * 1024 + 1 * (j 1).val)
    omega

/-- Window 3's block at point `t` is the gate array's band 3 (output) at the columns of the results' block at `t`. -/
theorem gateBlk3 (c : Dev nD) (t : Fin cfg1.N) (j : S256x1024.Idx) :
    (iblk1 (Vr2 m) c 3 t : Vec Ideal S256x1024 .f32) j
      = gatesArr (F := Ideal) m c (ix2 ((((cfg1.win 5).blk t).view.emb j) 0) (Cert.Spec.gcol 3 ((((cfg1.win 5).blk t).view.emb j) 1))) := by
  unfold iblk1
  rw [View.read_apply]
  show Vr2 m c main_v8 (((cfg1.win 3).blk t).view.emb j) = _
  rw [show Vr2 m c main_v8 = gatesArr (F := Ideal) m c from W2_gates m c]
  obtain ⟨e50, e51, -, -, -, -, e00, e01, e10, e11, e20, e21, e30, e31⟩ := blockIdx t
  congr 1
  funext a
  apply Fin.ext
  match a with
  | ⟨0, _⟩ =>
    show win1_3.index t (0 : Fin 2) * 256 + 1 * (j 0).val = win1_5.index t (0 : Fin 2) * 256 + 1 * (j 0).val
    omega
  | ⟨1, _⟩ =>
    show win1_3.index t (1 : Fin 2) * 1024 + 1 * (j 1).val = 2048 * 3 + (win1_5.index t (1 : Fin 2) * 1024 + 1 * (j 1).val)
    omega

/-- The cell state reaches region 1 as launched: neither the host operations nor region 0 write it. -/
theorem cellArr (c : Dev nD) : Vr2 m c main_arg2 = m ((c : Thread nD τ).loc main_arg2) :=
  (W2_of_ne m c main_arg2 (by decide)).trans ((V1_of m c main_arg2 (by decide)).trans rfl)

/-- Window 4's block at point `t` is the cell state at the entries of the results' block at `t`. -/
theorem cellBlk (c : Dev nD) (t : Fin cfg1.N) (j : S256x1024.Idx) :
    (iblk1 (Vr2 m) c 4 t : Vec Ideal S256x1024 .f32) j
      = (m ((c : Thread nD τ).loc main_arg2) : S4096x2048.Idx → EReal) (ix2 ((((cfg1.win 5).blk t).view.emb j) 0) ((((cfg1.win 5).blk t).view.emb j) 1)) := by
  unfold iblk1
  rw [View.read_apply]
  show Vr2 m c main_arg2 (((cfg1.win 4).blk t).view.emb j) = _
  rw [cellArr m c]
  obtain ⟨e50, e51, -, -, e40, e41, -⟩ := blockIdx t
  congr 1
  funext a
  apply Fin.ext
  match a with
  | ⟨0, _⟩ =>
    show win1_4.index t (0 : Fin 2) * 256 + 1 * (j 0).val = win1_5.index t (0 : Fin 2) * 256 + 1 * (j 0).val
    omega
  | ⟨1, _⟩ =>
    show win1_4.index t (1 : Fin 2) * 1024 + 1 * (j 1).val = win1_5.index t (1 : Fin 2) * 1024 + 1 * (j 1).val
    omega

/-- What point `t` writes back to the first result is block `t` of the specification's new hidden state. -/
theorem flushedH_eq (c : Dev nD) (t : Fin cfg1.N) :
    (dat1 (Vr2 m) c).flushed 5 t = ((cfg1.win 5).blk t).view.read (Elt Ideal) (Cert.Spec.hNew (gatesArr (F := Ideal) m c) (m ((c : Thread nD τ).loc main_arg2))) := by
  show (cfg1.win 5).cut (grid1.coords t) ((dat1 (Vr2 m) c).after 5 t) = _
  rw [after1_5]
  funext j
  rw [View.read_apply]
  show (hNewAt (Vr2 m) c t : S256x1024.Idx → EReal) j = Cert.Spec.hNew (gatesArr (F := Ideal) m c) (m ((c : Thread nD τ).loc main_arg2)) (((cfg1.win 5).blk t).view.emb j)
  exact hid_point (gatesArr (F := Ideal) m c) (m ((c : Thread nD τ).loc main_arg2)) (iblk1 (Vr2 m) c 0 t) (iblk1 (Vr2 m) c 1 t)
    (iblk1 (Vr2 m) c 3 t) (iblk1 (Vr2 m) c 2 t) (iblk1 (Vr2 m) c 4 t) j _ _
    (gateBlk0 m c t j) (gateBlk1 m c t j) (gateBlk2 m c t j) (gateBlk3 m c t j) (cellBlk m c t j)

/-- An index of the first result is in point `t`'s block iff each coordinate is in the block's range on its axis. -/
theorem mem_blkH (t : Fin cfg1.N) (i : S4096x2048.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v9_0).slice (win1_5.rect t)).set ↔ _
  rw [View.set_slice_whole, Rect.mem_set_unit]
  exact Iff.rfl

/-- Every pair of a row block and a column block is some point's, in both results. -/
theorem blockOnto : ∀ (q0 : Fin 16) (q1 : Fin 2), ∃ t : Fin cfg1.N,
    win1_5.index t (0 : Fin 2) = q0.val ∧ win1_5.index t (1 : Fin 2) = q1.val
    ∧ win1_6.index t (0 : Fin 2) = q0.val ∧ win1_6.index t (1 : Fin 2) = q1.val :=
  (by decide +kernel : ∀ (q0 : Fin 16) (q1 : Fin 2), ∃ t : Fin grid1.N, _)

/-- The blocks tile the first result: entry `(p, q)` is in the block of the point at row block `p / 256`, column
    block `q / 1024`. -/
theorem coverH (i : S4096x2048.Idx) :
    ∃ t : Fin cfg1.N, (cfg1.win 5).flush t = true ∧ i ∈ ((cfg1.win 5).blk t).view.set := by
  have h0 : (i 0).val < 4096 := (i 0).isLt
  have h1 : (i 1).val < 2048 := (i 1).isLt
  obtain ⟨t, q0, q1, -, -⟩ := blockOnto ⟨(i 0).val / 256, by omega⟩ ⟨(i 1).val / 1024, by omega⟩
  have q0' : win1_5.index t (0 : Fin 2) = (i 0).val / 256 := q0
  have q1' : win1_5.index t (1 : Fin 2) = (i 1).val / 1024 := q1
  refine ⟨t, flush1_5 t, ?_⟩
  rw [mem_blkH]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 1024 ≤ (i 1).val ∧ (i 1).val < win1_5.index t (1 : Fin 2) * 1024 + 1024
    omega

/-- The first result after region 1. -/
theorem hNewArr_eq (c : Dev nD) :
    (hNewArr (F := Ideal) m c : S4096x2048.Idx → EReal)
      = Cert.Spec.hNew (gatesArr (F := Ideal) m c) (m ((c : Thread nD τ).loc main_arg2)) := by
  unfold hNewArr
  exact (dat1 (Vr2 m) c).arrAt_eq_of_cover 5
    (Cert.Spec.hNew (gatesArr (F := Ideal) m c) (m ((c : Thread nD τ).loc main_arg2)))
    (fun t _ => flushedH_eq m c t) coverH

/-- The two results' blocks at a point sit at the same place. -/
theorem embC_eq (t : Fin cfg1.N) (j : S256x1024.Idx) :
    (((cfg1.win 6).blk t).view.emb j : S4096x2048.Idx) = ((cfg1.win 5).blk t).view.emb j := by
  obtain ⟨e50, e51, e60, e61, -⟩ := blockIdx t
  funext a
  apply Fin.ext
  match a with
  | ⟨0, _⟩ =>
    show win1_6.index t (0 : Fin 2) * 256 + 1 * (j 0).val = win1_5.index t (0 : Fin 2) * 256 + 1 * (j 0).val
    omega
  | ⟨1, _⟩ =>
    show win1_6.index t (1 : Fin 2) * 1024 + 1 * (j 1).val = win1_5.index t (1 : Fin 2) * 1024 + 1 * (j 1).val
    omega

/-- What point `t` writes back to the second result is block `t` of the specification's new cell state. -/
theorem flushedC_eq (c : Dev nD) (t : Fin cfg1.N) :
    (dat1 (Vr2 m) c).flushed 6 t = ((cfg1.win 6).blk t).view.read (Elt Ideal) (Cert.Spec.cNew (gatesArr (F := Ideal) m c) (m ((c : Thread nD τ).loc main_arg2))) := by
  show (cfg1.win 6).cut (grid1.coords t) ((dat1 (Vr2 m) c).after 6 t) = _
  rw [after1_6]
  funext j
  rw [View.read_apply]
  show (cNewAt (Vr2 m) c t : S256x1024.Idx → EReal) j = Cert.Spec.cNew (gatesArr (F := Ideal) m c) (m ((c : Thread nD τ).loc main_arg2)) (((cfg1.win 6).blk t).view.emb j)
  refine Eq.trans ?_ (congrArg (Cert.Spec.cNew (gatesArr (F := Ideal) m c) (m ((c : Thread nD τ).loc main_arg2))) (embC_eq t j).symm)
  exact cell_point (gatesArr (F := Ideal) m c) (m ((c : Thread nD τ).loc main_arg2)) (iblk1 (Vr2 m) c 0 t) (iblk1 (Vr2 m) c 1 t)
    (iblk1 (Vr2 m) c 2 t) (iblk1 (Vr2 m) c 4 t) j _ _
    (gateBlk0 m c t j) (gateBlk1 m c t j) (gateBlk2 m c t j) (cellBlk m c t j)

/-- An index of the second result is in point `t`'s block iff each coordinate is in the block's range on its axis. -/
theorem mem_blkC (t : Fin cfg1.N) (i : S4096x2048.Idx) :
    i ∈ ((cfg1.win 6).blk t).view.set ↔ ∀ a : Fin 2, win1_6.index t a * S256x1024.size a ≤ (i a).val ∧ (i a).val < win1_6.index t a * S256x1024.size a + S256x1024.size a := by
  show i ∈ ((View.whole main_v9_1).slice (win1_6.rect t)).set ↔ _
  rw [View.set_slice_whole, Rect.mem_set_unit]
  exact Iff.rfl

/-- The blocks tile the second result likewise. -/
theorem coverC (i : S4096x2048.Idx) :
    ∃ t : Fin cfg1.N, (cfg1.win 6).flush t = true ∧ i ∈ ((cfg1.win 6).blk t).view.set := by
  have h0 : (i 0).val < 4096 := (i 0).isLt
  have h1 : (i 1).val < 2048 := (i 1).isLt
  obtain ⟨t, -, -, q0, q1⟩ := blockOnto ⟨(i 0).val / 256, by omega⟩ ⟨(i 1).val / 1024, by omega⟩
  have q0' : win1_6.index t (0 : Fin 2) = (i 0).val / 256 := q0
  have q1' : win1_6.index t (1 : Fin 2) = (i 1).val / 1024 := q1
  refine ⟨t, flush1_6 t, ?_⟩
  rw [mem_blkC]
  intro a
  match a with
  | ⟨0, _⟩ =>
    show win1_6.index t (0 : Fin 2) * 256 ≤ (i 0).val ∧ (i 0).val < win1_6.index t (0 : Fin 2) * 256 + 256
    omega
  | ⟨1, _⟩ =>
    show win1_6.index t (1 : Fin 2) * 1024 ≤ (i 1).val ∧ (i 1).val < win1_6.index t (1 : Fin 2) * 1024 + 1024
    omega

/-- The second result after region 1. -/
theorem cNewArr_eq (c : Dev nD) :
    (cNewArr (F := Ideal) m c : S4096x2048.Idx → EReal)
      = Cert.Spec.cNew (gatesArr (F := Ideal) m c) (m ((c : Thread nD τ).loc main_arg2)) := by
  unfold cNewArr
  exact (dat1 (Vr2 m) c).arrAt_eq_of_cover 6
    (Cert.Spec.cNew (gatesArr (F := Ideal) m c) (m ((c : Thread nD τ).loc main_arg2)))
    (fun t _ => flushedC_eq m c t) coverC

end Cert.KernelIdeal.Hand

end
-- ==== Proof.RefValue.lean ====
/-
  The reference's two results, read index by index, are the specification's `hNew` and `cNew` of its gate array.
-/
import proofs.«181704_j25950192402731_1_alg».proof.Proof.Gen.ReferenceIdeal.Run
import proofs.«181704_j25950192402731_1_alg».proof.Proof.Gen.ReferenceIdeal.Read
import proofs.«181704_j25950192402731_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Read

/-! ## The literal 1.0 and the host's spelling of the logistic function -/

/-- The single-precision pattern of 1.0 denotes the extended real 1: its sign bit is clear, its eight exponent bits
    hold 127 (the bias) and its 23 fraction bits are zero, so it is the normal number 2^23 * 2^(127 - 127 - 23) = 1. -/
theorem one_bits : Ideal.ofBits .f32 0x3F800000#32 = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  -- the exponent field is neither all ones nor zero, and the sign is positive
  rw [if_neg (by norm_num), if_neg (by norm_num), if_neg (by decide)]
  have hexp : ((127 : Nat) : Int) - (2 ^ (8 - 1) - 1) - ((23 : Nat) : Int) = -23 := by norm_num
  rw [hexp]
  have hval : (1 : ℝ) * ((2 ^ 23 + 0 : Nat) : ℝ) * (2 : ℝ) ^ (-23 : Int) = 1 := by norm_num
  rw [hval, EReal.coe_one]

/-- The quotient 1 / (1 + exp (-z)), spelt with the host's operations and the literal 1.0, is the logistic function at z. -/
theorem host_logistic (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.div 1 (1 + Ideal.exp (-z))
  rw [one_bits]

/-! ## Index equations

The index functions of the generated read lemmas, at an index given by its coordinates, are the specification's
index constructors: a contraction reads row p (of the left operand) or row g (of the right operand) at column k; a bias is
read at the gate column g; the slice of band j reads gate column 2048 * j + q. -/

theorem lidx0 (p : Fin 4096) (g : Fin 8192) (k : Fin 2048) : lidx_main_v0 (ix2 p g) k = ix2 p k := by
  funext a; match a with | ⟨0, _⟩ => rfl | ⟨1, _⟩ => rfl
theorem ridx0 (p : Fin 4096) (g : Fin 8192) (k : Fin 2048) : ridx_main_v0 (ix2 p g) k = ix2 g k := by
  funext a; match a with | ⟨0, _⟩ => rfl | ⟨1, _⟩ => rfl
theorem lidx1 (p : Fin 4096) (g : Fin 8192) (k : Fin 2048) : lidx_main_v1 (ix2 p g) k = ix2 p k := by
  funext a; match a with | ⟨0, _⟩ => rfl | ⟨1, _⟩ => rfl
theorem ridx1 (p : Fin 4096) (g : Fin 8192) (k : Fin 2048) : ridx_main_v1 (ix2 p g) k = ix2 g k := by
  funext a; match a with | ⟨0, _⟩ => rfl | ⟨1, _⟩ => rfl
theorem bidx4 (p : Fin 4096) (g : Fin 8192) : idx_main_v3 (idx_main_v4 (ix2 p g)) = ix1 g := by
  funext a; match a with | ⟨0, _⟩ => rfl
theorem bidx7 (p : Fin 4096) (g : Fin 8192) : idx_main_v6 (idx_main_v7 (ix2 p g)) = ix1 g := by
  funext a; match a with | ⟨0, _⟩ => rfl

theorem sidx9 (p : Fin 4096) (q : Fin 2048) : idx_main_v9 (ix2 p q) = ix2 p (Cert.Spec.gcol 0 q) := by
  funext a; match a with
  | ⟨0, _⟩ => rfl
  | ⟨1, _⟩ => exact Fin.ext (by show q.val = 2048 * 0 + q.val; omega)
theorem sidx10 (p : Fin 4096) (q : Fin 2048) : idx_main_v10 (ix2 p q) = ix2 p (Cert.Spec.gcol 1 q) := by
  funext a; match a with
  | ⟨0, _⟩ => rfl
  | ⟨1, _⟩ => exact Fin.ext (by show 2048 + q.val = 2048 * 1 + q.val; omega)
theorem sidx11 (p : Fin 4096) (q : Fin 2048) : idx_main_v11 (ix2 p q) = ix2 p (Cert.Spec.gcol 2 q) := by
  funext a; match a with
  | ⟨0, _⟩ => rfl
  | ⟨1, _⟩ => exact Fin.ext (by show 4096 + q.val = 2048 * 2 + q.val; omega)
theorem sidx12 (p : Fin 4096) (q : Fin 2048) : idx_main_v12 (ix2 p q) = ix2 p (Cert.Spec.gcol 3 q) := by
  funext a; match a with
  | ⟨0, _⟩ => rfl
  | ⟨1, _⟩ => exact Fin.ext (by show 6144 + q.val = 2048 * 3 + q.val; omega)

/-! ## The gate array -/

/-- The reference's pre-activation array, read at row p and gate column g, is the specification's gate entry:
    the two contractions added, then the two biases added in the reference's order. -/
theorem ref_gates (x0 x1 : (⟨S4096x2048, .f32⟩ : BufTy).Contents (Elt Ideal)) (x3 : (⟨S8192x2048, .f32⟩ : BufTy).Contents (Elt Ideal)) (x4 : (⟨S8192, .f32⟩ : BufTy).Contents (Elt Ideal)) (x5 : (⟨S8192x2048, .f32⟩ : BufTy).Contents (Elt Ideal)) (x6 : (⟨S8192, .f32⟩ : BufTy).Contents (Elt Ideal)) (p : Fin 4096) (g : Fin 8192) :
    val_main_v8 (F := Ideal) x0 x1 x3 x4 x5 x6 (ix2 p g) = Cert.Spec.gateAt x0 x1 x3 x5 x4 x6 p g := by
  rw [val_main_v8_apply, val_main_v5_apply, val_main_v2_apply, val_main_v0_apply, val_main_v1_apply,
    val_main_v7_apply, val_main_v6_apply, val_main_v4_apply, val_main_v3_apply]
  simp only [lidx0, ridx0, lidx1, ridx1, bidx4, bidx7]
  rfl

/-! ## The two results -/

/-- The new cell state at row p, column q: the forget gate times the old cell state plus the input gate times the
    candidate, each gate the logistic function of its band of the gate array, the candidate the hyperbolic tangent of its. -/
theorem ref_c_at (x0 x1 x2 : (⟨S4096x2048, .f32⟩ : BufTy).Contents (Elt Ideal)) (x3 : (⟨S8192x2048, .f32⟩ : BufTy).Contents (Elt Ideal)) (x4 : (⟨S8192, .f32⟩ : BufTy).Contents (Elt Ideal)) (x5 : (⟨S8192x2048, .f32⟩ : BufTy).Contents (Elt Ideal)) (x6 : (⟨S8192, .f32⟩ : BufTy).Contents (Elt Ideal)) (p : Fin 4096) (q : Fin 2048) :
    val_main_v34 (F := Ideal) x0 x1 x2 x3 x4 x5 x6 (ix2 p q) = Cert.Spec.cNewAt (Cert.Spec.gates x0 x1 x3 x5 x4 x6) x2 p q := by
  rw [val_main_v34_apply, val_main_v32_apply, val_main_v33_apply, val_main_v24_apply, val_main_v18_apply, val_main_v31_apply,
    val_main_v23_apply, val_main_cst_2_apply, val_main_v22_apply, val_main_v21_apply, val_main_cst_1_apply,
    val_main_v20_apply, val_main_v19_apply, val_main_v10_apply,
    val_main_v17_apply, val_main_cst_0_apply, val_main_v16_apply, val_main_v15_apply, val_main_cst_apply,
    val_main_v14_apply, val_main_v13_apply, val_main_v9_apply, val_main_v11_apply,
    sidx9, sidx10, sidx11, ref_gates, ref_gates, ref_gates, host_logistic, host_logistic]
  rfl

/-- The new hidden state at row p, column q: the output gate times the hyperbolic tangent of the new cell state. -/
theorem ref_h_at (x0 x1 x2 : (⟨S4096x2048, .f32⟩ : BufTy).Contents (Elt Ideal)) (x3 : (⟨S8192x2048, .f32⟩ : BufTy).Contents (Elt Ideal)) (x4 : (⟨S8192, .f32⟩ : BufTy).Contents (Elt Ideal)) (x5 : (⟨S8192x2048, .f32⟩ : BufTy).Contents (Elt Ideal)) (x6 : (⟨S8192, .f32⟩ : BufTy).Contents (Elt Ideal)) (p : Fin 4096) (q : Fin 2048) :
    val_main_v36 (F := Ideal) x0 x1 x2 x3 x4 x5 x6 (ix2 p q) = Cert.Spec.hNewAt (Cert.Spec.gates x0 x1 x3 x5 x4 x6) x2 p q := by
  rw [val_main_v36_apply, val_main_v35_apply, ref_c_at, val_main_v30_apply, val_main_v29_apply, val_main_cst_4_apply,
    val_main_v28_apply, val_main_v27_apply, val_main_cst_3_apply, val_main_v26_apply, val_main_v25_apply, val_main_v12_apply,
    sidx12, ref_gates, host_logistic]
  rfl

/-- The reference's new cell state is the specification's, of its gate array and the old cell state. -/
theorem ref_c (x0 x1 x2 : (⟨S4096x2048, .f32⟩ : BufTy).Contents (Elt Ideal)) (x3 : (⟨S8192x2048, .f32⟩ : BufTy).Contents (Elt Ideal)) (x4 : (⟨S8192, .f32⟩ : BufTy).Contents (Elt Ideal)) (x5 : (⟨S8192x2048, .f32⟩ : BufTy).Contents (Elt Ideal)) (x6 : (⟨S8192, .f32⟩ : BufTy).Contents (Elt Ideal)) :
    (Cert.ReferenceIdeal.Read.val_main_v34 (F := Ideal) x0 x1 x2 x3 x4 x5 x6 : S4096x2048.Idx → EReal) = Cert.Spec.cNew (Cert.Spec.gates x0 x1 x3 x5 x4 x6) x2 := by
  funext i
  obtain ⟨p, q, rfl⟩ : ∃ (p : Fin 4096) (q : Fin 2048), i = ix2 p q := ⟨i 0, i 1, eq_ix2 i⟩
  exact ref_c_at x0 x1 x2 x3 x4 x5 x6 p q

/-- The reference's new hidden state is the specification's, of its gate array and the old cell state. -/
theorem ref_h (x0 x1 x2 : (⟨S4096x2048, .f32⟩ : BufTy).Contents (Elt Ideal)) (x3 : (⟨S8192x2048, .f32⟩ : BufTy).Contents (Elt Ideal)) (x4 : (⟨S8192, .f32⟩ : BufTy).Contents (Elt Ideal)) (x5 : (⟨S8192x2048, .f32⟩ : BufTy).Contents (Elt Ideal)) (x6 : (⟨S8192, .f32⟩ : BufTy).Contents (Elt Ideal)) :
    (Cert.ReferenceIdeal.Read.val_main_v36 (F := Ideal) x0 x1 x2 x3 x4 x5 x6 : S4096x2048.Idx → EReal) = Cert.Spec.hNew (Cert.Spec.gates x0 x1 x3 x5 x4 x6) x2 := by
  funext i
  obtain ⟨p, q, rfl⟩ : ∃ (p : Fin 4096) (q : Fin 2048), i = ix2 p q := ⟨i 0, i 1, eq_ix2 i⟩
  exact ref_h_at x0 x1 x2 x3 x4 x5 x6 p q

end Cert.ReferenceIdeal.RefValue

end
-- ==== Proof.lean ====
/-
  An LSTM cell, `gates = x·W_xᵀ + h·W_hᵀ + b_x + b_h`, `c' = σ(f)·c + σ(i)·tanh(g)`, `h' = σ(o)·tanh(c')` with
  `i, f, g, o` the four column bands of `gates`, computed by two kernel regions — a tiled matrix product that accumulates
  the two products over two K-blocks in a scratch block and adds the biases at the last K-block, then a pointwise pass
  over four blocks of the gate array, one per band — against the same formulas written with whole-array operations.

  On the extended reals a change of float format is the identity, a matrix product into a zero accumulator and the
  whole-array contraction are the same finite sums, addition is commutative and associative, a sum over 2048 terms is
  the sum of its two halves, and the logistic function IS `1 / (1 + exp (−z))`; so both programs compute the
  specification's `hNew` and `cNew` of the specification's gate array (`Spec.lean`), index by index. No precondition is
  used: the laws needed hold at the infinities too.

  The frames: @main is the host operations (format changes, two transposes, two reshapes) and the two regions. Each
  region is a segment entered from every unscoped buffer held whole at the contents the item before left, and left with
  its output arrays at what its write-backs make of them (`KI/Reg0.lean`, `KI/Reg1.lean`; the gate array is read by
  region 1 through four windows, each at a quarter share); the run composes the segments and reads every unscoped
  buffer back at the end (`KI/Run.lean`). The word-level program's modules (`K/`) are the same text in its namespace.
-/
import proofs.«181704_j25950192402731_1_alg».proof.Defs
import proofs.«181704_j25950192402731_1_alg».proof.Proof.Gen.Kernel
import proofs.«181704_j25950192402731_1_alg».proof.Proof.Gen.KernelIdeal
import proofs.«181704_j25950192402731_1_alg».proof.Proof.Gen.ReferenceIdeal
import proofs.«181704_j25950192402731_1_alg».proof.Proof.Gen.Pre_finite_inputs
import proofs.«181704_j25950192402731_1_alg».proof.Proof.Gen.ReferenceIdeal.Run
import proofs.«181704_j25950192402731_1_alg».proof.Proof.Gen.ReferenceIdeal.Read
import proofs.«181704_j25950192402731_1_alg».proof.Proof.K.Run
import proofs.«181704_j25950192402731_1_alg».proof.Proof.KI.Run
import proofs.«181704_j25950192402731_1_alg».proof.Proof.KI.Value0
import proofs.«181704_j25950192402731_1_alg».proof.Proof.KI.Value1
import proofs.«181704_j25950192402731_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame_all (F := Bits) m ρ

/-- So does the idealized program. -/
theorem frame_ki : Cert.frame_KernelIdeal := fun m ρ _ => Cert.KernelIdeal.Hand.frame_all (F := Ideal) m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both idealized programs end with the specification's new hidden state and new cell state of the launch arrays. -/
theorem algebraic : Cert.algebraic_KernelIdeal_ReferenceIdeal := by
  intro m ρ m' ρ' _ hagree
  refine ⟨fun c => Cert.Spec.hNew (Cert.Spec.gates (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))) (m ((c.tc : Thread Cert.KernelIdeal.nD Cert.KernelIdeal.τ).loc Cert.KernelIdeal.main_arg2)),
    fun c => Cert.Spec.cNew (Cert.Spec.gates (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))) (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2.1.trans ?_, (h c).2.2⟩)
      (Cert.KernelIdeal.Hand.run_named (F := Ideal) m ρ)
    · rw [Cert.KernelIdeal.Hand.hNewArr_eq, Cert.KernelIdeal.Hand.gatesArr_eq]
    · rw [Cert.KernelIdeal.Hand.cNewArr_eq, Cert.KernelIdeal.Hand.gatesArr_eq]
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2.1, (hagree c).2.2.2.2.1, (hagree c).2.2.2.2.2.1, (hagree c).2.2.2.2.2.2]
      exact (Cert.ReferenceIdeal.Read.val_main_v36_eq _ _ _ _ _ _ _).trans (Cert.ReferenceIdeal.RefValue.ref_h _ _ _ _ _ _ _)
    · rw [(hagree c).1, (hagree c).2.1, (hagree c).2.2.1, (hagree c).2.2.2.1, (hagree c).2.2.2.2.1, (hagree c).2.2.2.2.2.1, (hagree c).2.2.2.2.2.2]
      exact (Cert.ReferenceIdeal.Read.val_main_v34_eq _ _ _ _ _ _ _).trans (Cert.ReferenceIdeal.RefValue.ref_c _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
